-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S10000x512 : Shape := ⟨2, ![10000, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S10000x512 : S_.BroadcastsInDim S10000x512 (![] : Fin 0 → Fin S10000x512.rank)
  reducesTo_S10000x512_S_d0_1 : S10000x512.ReducesTo [0, 1] S_

variable [Facts]

def fn {F : FTy → Type} [FloatOps F] (main_arg0 : FVec F S4096x512 .f32) (main_arg1 : FVec F S10000x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S10000x512 .f32 := Host.absf main_arg1
  let main_cst_0 : FVec F S_ .f32 := constant S_ .f32 0x7F800000#32
  let main_v5 : FVec F S10000x512 .f32 := broadcastInDim S10000x512 ![] bcast_S_S10000x512 main_cst_0
  let main_v6 : IVec S10000x512 1 := cmpf .olt main_v4 main_v5
  let main_c_1 : IVec S_ 1 := constantI S_ 1 1#1
  let main_v7 : IVec S_ 1 := (fun x v => Host.reduce IntOp.andi x v reducesTo_S10000x512_S_d0_1 h_S_) main_v6 main_c_1
  let main_v8 : IVec S_ 1 := andi main_v3 main_v7
  main_v8
-- ==== Kernel.lean ====
abbrev S4096x512 : Shape := ⟨2, ![4096, 512]⟩
abbrev S10000x512 : Shape := ⟨2, ![10000, 512]⟩
abbrev S4096x1 : Shape := ⟨2, ![4096, 1]⟩
abbrev S512x512 : Shape := ⟨2, ![512, 512]⟩
abbrev S512x1 : Shape := ⟨2, ![512, 1]⟩
abbrev S512 : Shape := ⟨1, ![512]⟩
abbrev S10000x1 : Shape := ⟨2, ![10000, 1]⟩
abbrev S1280x512 : Shape := ⟨2, ![1280, 512]⟩
abbrev S1280x1 : Shape := ⟨2, ![1280, 1]⟩
abbrev S1280 : Shape := ⟨1, ![1280]⟩
abbrev S1x10000 : Shape := ⟨2, ![1, 10000]⟩
abbrev S4096x10000 : Shape := ⟨2, ![4096, 10000]⟩
abbrev S1x1280 : Shape := ⟨2, ![1, 1280]⟩
abbrev S512x1280 : Shape := ⟨2, ![512, 1280]⟩

abbrev nBuf : Space → Nat
  | .hbm => 8
  | .vmem => 22
  | .smem => 0
  | _ => 0

abbrev bufTy : (tb : Table) → Fin (tcTables nBuf tb) → BufTy
  | .hbm, ⟨0, _⟩ => ⟨S4096x512, .f32⟩
  | .hbm, ⟨1, _⟩ => ⟨S10000x512, .f32⟩
  | .hbm, ⟨2, _⟩ => ⟨S4096x512, .bf16⟩
  | .hbm, ⟨3, _⟩ => ⟨S4096x1, .f32⟩
  | .hbm, ⟨4, _⟩ => ⟨S10000x512, .bf16⟩
  | .hbm, ⟨5, _⟩ => ⟨S10000x1, .f32⟩
  | .hbm, ⟨6, _⟩ => ⟨S1x10000, .f32⟩
  | .hbm, ⟨7, _⟩ => ⟨S4096x10000, .f32⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S512x1, .f32⟩
  | .local _ .vmem, ⟨5, _⟩ => ⟨S512x1, .f32⟩
  | .local _ .vmem, ⟨6, _⟩ => ⟨S1280x512, .f32⟩
  | .local _ .vmem, ⟨7, _⟩ => ⟨S1280x512, .f32⟩
  | .local _ .vmem, ⟨8, _⟩ => ⟨S1280x512, .bf16⟩
  | .local _ .vmem, ⟨9, _⟩ => ⟨S1280x512, .bf16⟩
  | .local _ .vmem, ⟨10, _⟩ => ⟨S1280x1, .f32⟩
  | .local _ .vmem, ⟨11, _⟩ => ⟨S1280x1, .f32⟩
  | .local _ .vmem, ⟨12, _⟩ => ⟨S512x512, .bf16⟩
  | .local _ .vmem, ⟨13, _⟩ => ⟨S512x512, .bf16⟩
  | .local _ .vmem, ⟨14, _⟩ => ⟨S512x1, .f32⟩
  | .local _ .vmem, ⟨15, _⟩ => ⟨S512x1, .f32⟩
  | .local _ .vmem, ⟨16, _⟩ => ⟨S1280x512, .bf16⟩
  | .local _ .vmem, ⟨17, _⟩ => ⟨S1280x512, .bf16⟩
  | .local _ .vmem, ⟨18, _⟩ => ⟨S1x1280, .f32⟩
  | .local _ .vmem, ⟨19, _⟩ => ⟨S1x1280, .f32⟩
  | .local _ .vmem, ⟨20, _⟩ => ⟨S512x1280, .f32⟩
  | .local _ .vmem, ⟨21, _⟩ => ⟨S512x1280, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1280x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1280x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1280x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S512x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1280x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x1280 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S512x1280 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

class Facts₀ : Prop where
  inb_S512x512_S512x512_0_0 : ∀ a, (![0, 0] : Fin 2 → Nat) a + S512x512.size a ≤ S512x512.size a
  h_S512x512 : 0 < S512x512.numel
  reduces_S512x512_S512 : S512x512.Reduces [1] S512
  shapeCasts_S512_S512x1 : S512.ShapeCasts S512x1
  broadcasts_S512x1_S512x512 : S512x1.Broadcasts S512x512
  bitsLt_bf16_f32 : FTy.bits .bf16 < FTy.bits .f32
  packedbf16_S512x512_S512x512_0_0 : (Rect.unit (s := S512x512) ![0, 0] S512x512.size inb_S512x512_S512x512_0_0).PackedRows (EltTy.packing .bf16)
  inb_S512x1_S512x1_0_0 : ∀ a, (![0, 0] : Fin 2 → Nat) a + S512x1.size a ≤ S512x1.size a
  h_S512x1 : 0 < S512x1.numel
  inb_S1280x512_S1280x512_0_0 : ∀ a, (![0, 0] : Fin 2 → Nat) a + S1280x512.size a ≤ S1280x512.size a
  h_S1280x512 : 0 < S1280x512.numel
  reduces_S1280x512_S1280 : S1280x512.Reduces [1] S1280
  shapeCasts_S1280_S1280x1 : S1280.ShapeCasts S1280x1
  broadcasts_S1280x1_S1280x512 : S1280x1.Broadcasts S1280x512
  packedbf16_S1280x512_S1280x512_0_0 : (Rect.unit (s := S1280x512) ![0, 0] S1280x512.size inb_S1280x512_S1280x512_0_0).PackedRows (EltTy.packing .bf16)
  inb_S1280x1_S1280x1_0_0 : ∀ a, (![0, 0] : Fin 2 → Nat) a + S1280x1.size a ≤ S1280x1.size a
  h_S1280x1 : 0 < S1280x1.numel
  transposes_S10000x1_S1x10000_1_0 : S10000x1.Transposes [1, 0] S1x10000
  shapeCasts_S512x512_S512x512 : S512x512.ShapeCasts S512x512
  shapeCasts_S1280x512_S1280x512 : S1280x512.ShapeCasts S1280x512
  shapeCasts_S512x1_S512x1 : S512x1.ShapeCasts S512x1
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S512x1_S512x1280 : S512x1.Broadcasts S512x1280
  broadcasts_S1x1280_S512x1280 : S1x1280.Broadcasts S512x1280
  inb_S512x1280_S512x1280_0_0 : ∀ a, (![0, 0] : Fin 2 → Nat) a + S512x1280.size a ≤ S512x1280.size a
  h_S512x1280 : 0 < S512x1280.numel
  dot_S512x512_S1280x512_S512x1280_1_1_0_0_n_n_wf : DotDims.WF S512x512 S1280x512 S512x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .f32 = 32 ∨ (Rect.block (s := S4096x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x512.size a
  hwx0_1 : ∀ i : grid0.Coords, EltTy.bits .bf16 = 32 ∨ (Rect.block (s := S4096x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S1280x512.size a < S10000x512.size a
  hwx1_0 : ∀ i : grid1.Coords, EltTy.bits .f32 = 32 ∨ (Rect.unit (s := S10000x512) (fun a => cc1_transform_0 i a * S1280x512.size a) (fun a => (Pipeline.Clip.of (cc1_transform_0 i a) (S1280x512.size a) (S10000x512.size a)).extent (S1280x512.size a)) fun a => Pipeline.Clip.inb (Pipeline.Clip.ok_of (hstart1_0 i a))).WholeWords (EltTy.packing .f32)
  hwxs1_0 : ∀ i : grid1.Coords, EltTy.bits .f32 = 32 ∨ (Rect.unit (s := S1280x512) (fun _ => 0) (fun a => (Pipeline.Clip.of (cc1_transform_0 i a) (S1280x512.size a) (S10000x512.size a)).extent (S1280x512.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S1280x512.size a < S10000x512.size a
  hwx1_1 : ∀ i : grid1.Coords, EltTy.bits .bf16 = 32 ∨ (Rect.unit (s := S10000x512) (fun a => cc1_transform_1 i a * S1280x512.size a) (fun a => (Pipeline.Clip.of (cc1_transform_1 i a) (S1280x512.size a) (S10000x512.size a)).extent (S1280x512.size a)) fun a => Pipeline.Clip.inb (Pipeline.Clip.ok_of (hstart1_1 i a))).WholeWords (EltTy.packing .bf16)
  hwxs1_1 : ∀ i : grid1.Coords, EltTy.bits .bf16 = 32 ∨ (Rect.unit (s := S1280x512) (fun _ => 0) (fun a => (Pipeline.Clip.of (cc1_transform_1 i a) (S1280x512.size a) (S10000x512.size a)).extent (S1280x512.size a)) fun a => (Nat.zero_add _).trans_le (Pipeline.Clip.extent_le (Pipeline.Clip.ok_of (hstart1_1 i a)))).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S1280x1.size a < S10000x1.size a
  hwx1_2 : ∀ i : grid1.Coords, EltTy.bits .f32 = 32 ∨ (Rect.unit (s := S10000x1) (fun a => cc1_transform_2 i a * S1280x1.size a) (fun a => (Pipeline.Clip.of (cc1_transform_2 i a) (S1280x1.size a) (S10000x1.size a)).extent (S1280x1.size a)) fun a => Pipeline.Clip.inb (Pipeline.Clip.ok_of (hstart1_2 i a))).WholeWords (EltTy.packing .f32)
  hwxs1_2 : ∀ i : grid1.Coords, EltTy.bits .f32 = 32 ∨ (Rect.unit (s := S1280x1) (fun _ => 0) (fun a => (Pipeline.Clip.of (cc1_transform_2 i a) (S1280x1.size a) (S10000x1.size a)).extent (S1280x1.size a)) fun a => (Nat.zero_add _).trans_le (Pipeline.Clip.extent_le (Pipeline.Clip.ok_of (hstart1_2 i a)))).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S4096x512.size a
  hwx2_0 : ∀ i : grid2.Coords, EltTy.bits .bf16 = 32 ∨ (Rect.block (s := S4096x512) S512x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x1.size a ≤ S4096x1.size a
  hwx2_1 : ∀ i : grid2.Coords, EltTy.bits .f32 = 32 ∨ (Rect.block (s := S4096x1) S512x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S1280x512.size a < S10000x512.size a
  hwx2_2 : ∀ i : grid2.Coords, EltTy.bits .bf16 = 32 ∨ (Rect.unit (s := S10000x512) (fun a => cc2_transform_2 i a * S1280x512.size a) (fun a => (Pipeline.Clip.of (cc2_transform_2 i a) (S1280x512.size a) (S10000x512.size a)).extent (S1280x512.size a)) fun a => Pipeline.Clip.inb (Pipeline.Clip.ok_of (hstart2_2 i a))).WholeWords (EltTy.packing .bf16)
  hwxs2_2 : ∀ i : grid2.Coords, EltTy.bits .bf16 = 32 ∨ (Rect.unit (s := S1280x512) (fun _ => 0) (fun a => (Pipeline.Clip.of (cc2_transform_2 i a) (S1280x512.size a) (S10000x512.size a)).extent (S1280x512.size a)) fun a => (Nat.zero_add _).trans_le (Pipeline.Clip.extent_le (Pipeline.Clip.ok_of (hstart2_2 i a)))).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hstart2_3 : ∀ (i : grid2.Coords) a, cc2_transform_3 i a * S1x1280.size a < S1x10000.size a
  hwx2_3 : ∀ i : grid2.Coords, EltTy.bits .f32 = 32 ∨ (Rect.unit (s := S1x10000) (fun a => cc2_transform_3 i a * S1x1280.size a) (fun a => (Pipeline.Clip.of (cc2_transform_3 i a) (S1x1280.size a) (S1x10000.size a)).extent (S1x1280.size a)) fun a => Pipeline.Clip.inb (Pipeline.Clip.ok_of (hstart2_3 i a))).WholeWords (EltTy.packing .f32)
  hwxs2_3 : ∀ i : grid2.Coords, EltTy.bits .f32 = 32 ∨ (Rect.unit (s := S1x1280) (fun _ => 0) (fun a => (Pipeline.Clip.of (cc2_transform_3 i a) (S1x1280.size a) (S1x10000.size a)).extent (S1x1280.size a)) fun a => (Nat.zero_add _).trans_le (Pipeline.Clip.extent_le (Pipeline.Clip.ok_of (hstart2_3 i a)))).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hstart2_4 : ∀ (i : grid2.Coords) a, cc2_transform_4 i a * S512x1280.size a < S4096x10000.size a
  hwx2_4 : ∀ i : grid2.Coords, EltTy.bits .f32 = 32 ∨ (Rect.unit (s := S4096x10000) (fun a => cc2_transform_4 i a * S512x1280.size a) (fun a => (Pipeline.Clip.of (cc2_transform_4 i a) (S512x1280.size a) (S4096x10000.size a)).extent (S512x1280.size a)) fun a => Pipeline.Clip.inb (Pipeline.Clip.ok_of (hstart2_4 i a))).WholeWords (EltTy.packing .f32)
  hwxs2_4 : ∀ i : grid2.Coords, EltTy.bits .f32 = 32 ∨ (Rect.unit (s := S512x1280) (fun _ => 0) (fun a => (Pipeline.Clip.of (cc2_transform_4 i a) (S512x1280.size a) (S4096x10000.size a)).extent (S512x1280.size a)) fun a => (Nat.zero_add _).trans_le (Pipeline.Clip.extent_le (Pipeline.Clip.ok_of (hstart2_4 i a)))).WholeWords (EltTy.packing .f32)

variable [Facts₀]

def dot_S512x512_S1280x512_S512x1280_1_1_0_0_n_n : DotDims S512x512 S1280x512 S512x1280 where
  lhsContracting := [1]
  rhsContracting := [1]
  lhsNonContracting := [0]
  rhsNonContracting := [0]
  lhsBatch := []
  rhsBatch := []
  wf := dot_S512x512_S1280x512_S512x1280_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S512x512.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpecClip (Memref.whole main_arg1) S1280x512.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_v1_0) S1280x512.size cc1_transform_1 reads1_1 true false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v1_1) S1280x1.size cc1_transform_2 reads1_2 true false 2 stage1_2 sem1_2
    hrank1 hreads1_2 hstart1_2 nbuf1_2 (Memref.isWhole_whole _) hwx1_2 hwxs1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0_0) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0_1) S512x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpecClip (Memref.whole main_v1_0) S1280x512.size cc2_transform_2 reads2_2 false false 2 stage2_2 sem2_2
    hrank2 hreads2_2 hstart2_2 nbuf2_2 (Memref.isWhole_whole _) hwx2_2 hwxs2_2 hstage2_2

abbrev win2_3 : Pipeline.Window sig grid2 :=
  Pipeline.Window.ofSpecClip (Memref.whole main_v2) S1x1280.size cc2_transform_3 reads2_3 false false 2 stage2_3 sem2_3
    hrank2 hreads2_3 hstart2_3 nbuf2_3 (Memref.isWhole_whole _) hwx2_3 hwxs2_3 hstage2_3

abbrev win2_4 : Pipeline.Window sig grid2 :=
  Pipeline.Window.ofSpecClip (Memref.whole main_v3) S512x1280.size cc2_transform_4 reads2_4 true false 2 stage2_4 sem2_4
    hrank2 hreads2_4 hstart2_4 nbuf2_4 (Memref.isWhole_whole _) hwx2_4 hwxs2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S4096x512 : Shape := ⟨2, ![4096, 512]⟩
abbrev S10000x512 : Shape := ⟨2, ![10000, 512]⟩
abbrev S_ : Shape := ⟨0, ![]⟩
abbrev S4096 : Shape := ⟨1, ![4096]⟩
abbrev S4096x1 : Shape := ⟨2, ![4096, 1]⟩
abbrev S10000 : Shape := ⟨1, ![10000]⟩
abbrev S10000x1 : Shape := ⟨2, ![10000, 1]⟩
abbrev S4096x10000 : Shape := ⟨2, ![4096, 10000]⟩
abbrev S1x10000 : Shape := ⟨2, ![1, 10000]⟩

abbrev nBuf : Space → Nat
  | .hbm => 44
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S10000x512, .f32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S4096x1, .f32⟩
  | .hbm, ⟨10, _⟩ => ⟨S4096x512, .f32⟩
  | .hbm, ⟨11, _⟩ => ⟨S4096x512, .f32⟩
  | .hbm, ⟨12, _⟩ => ⟨S_, .f32⟩
  | .hbm, ⟨13, _⟩ => ⟨S4096x512, .f32⟩
  | .hbm, ⟨14, _⟩ => ⟨S4096x512, .f32⟩
  | .hbm, ⟨15, _⟩ => ⟨S10000x512, .f32⟩
  | .hbm, ⟨16, _⟩ => ⟨S_, .f32⟩
  | .hbm, ⟨17, _⟩ => ⟨S10000, .f32⟩
  | .hbm, ⟨18, _⟩ => ⟨S10000x1, .f32⟩
  | .hbm, ⟨19, _⟩ => ⟨S_, .f32⟩
  | .hbm, ⟨20, _⟩ => ⟨S10000x1, .f32⟩
  | .hbm, ⟨21, _⟩ => ⟨S10000x1, .f32⟩
  | .hbm, ⟨22, _⟩ => ⟨S10000x1, .f32⟩
  | .hbm, ⟨23, _⟩ => ⟨S10000x512, .f32⟩
  | .hbm, ⟨24, _⟩ => ⟨S10000x512, .f32⟩
  | .hbm, ⟨25, _⟩ => ⟨S_, .f32⟩
  | .hbm, ⟨26, _⟩ => ⟨S10000x512, .f32⟩
  | .hbm, ⟨27, _⟩ => ⟨S10000x512, .f32⟩
  | .hbm, ⟨28, _⟩ => ⟨S4096x512, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S10000x512, .f32⟩
  | .hbm, ⟨33, _⟩ => ⟨S_, .f32⟩
  | .hbm, ⟨34, _⟩ => ⟨S10000, .f32⟩
  | .hbm, ⟨35, _⟩ => ⟨S4096x10000, .f32⟩
  | .hbm, ⟨36, _⟩ => ⟨S1x10000, .f32⟩
  | .hbm, ⟨37, _⟩ => ⟨S4096x10000, .f32⟩
  | .hbm, ⟨38, _⟩ => ⟨S4096x10000, .f32⟩
  | .hbm, ⟨39, _⟩ => ⟨S4096x10000, .f32⟩
  | .hbm, ⟨40, _⟩ => ⟨S_, .f32⟩
  | .hbm, ⟨41, _⟩ => ⟨S4096x10000, .f32⟩
  | .hbm, ⟨42, _⟩ => ⟨S4096x10000, .f32⟩
  | .hbm, ⟨43, _⟩ => ⟨S4096x10000, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_6 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_7 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  bcast_S_S4096x512 : S_.BroadcastsInDim S4096x512 (![] : Fin 0 → Fin S4096x512.rank)
  reducesTo_S10000x512_S10000_d1 : S10000x512.ReducesTo [1] S10000
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x512_0_1 : S10000x1.BroadcastsInDim S10000x512 (![0, 1] : Fin 2 → Fin S10000x512.rank)
  bcast_S_S10000x512 : S_.BroadcastsInDim S10000x512 (![] : Fin 0 → Fin S10000x512.rank)
  bcast_S10000_S1x10000_1 : S10000.BroadcastsInDim S1x10000 (![1] : Fin 1 → Fin S1x10000.rank)
  bcast_S4096x1_S4096x10000_0_1 : S4096x1.BroadcastsInDim S4096x10000 (![0, 1] : Fin 2 → Fin S4096x10000.rank)
  bcast_S1x10000_S4096x10000_0_1 : S1x10000.BroadcastsInDim S4096x10000 (![0, 1] : Fin 2 → Fin S4096x10000.rank)
  bcast_S_S4096x10000 : S_.BroadcastsInDim S4096x10000 (![] : Fin 0 → Fin S4096x10000.rank)
  dot_S4096x512_S10000x512_S4096x10000_1_1_0_0_n_n_wf : DotDims.WF S4096x512 S10000x512 S4096x10000 [1] [1] [0] [0] [] []

variable [Facts₀]

def dot_S4096x512_S10000x512_S4096x10000_1_1_0_0_n_n : DotDims S4096x512 S10000x512 S4096x10000 where
  lhsContracting := [1]
  rhsContracting := [1]
  lhsNonContracting := [0]
  rhsNonContracting := [0]
  lhsBatch := []
  rhsBatch := []
  wf := dot_S4096x512_S10000x512_S4096x10000_1_1_0_0_n_n_wf

class Facts : Prop extends Facts₀ where

variable [Facts]
-- ==== Proof.K.Body0.lean ====
/-
  The first normalising kernel's body (512 rows a point), run once on whole staging buffers: from the input buffer at
  contents x and the two output buffers at anything, it ends with the input as it was, the first output at the
  scaled rows of x and the second at their squared lengths — the two stored values as functions of the one load.
-/
import proofs.«139165_j18451179503909_1_alg».proof.Proof.Gen.Kernel.Launch
import proofs.«139165_j18451179503909_1_alg».proof.Proof.Gen.Kernel.Skeleton
import proofs.«139165_j18451179503909_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The two rectangles the body's accesses use: each the whole buffer. -/
abbrev rA0 : Rect S512x512 := Rect.unit (s := S512x512) ![0, 0] S512x512.size inb_S512x512_S512x512_0_0
abbrev rB0 : Rect S512x1 := Rect.unit (s := S512x1) ![0, 0] S512x1.size inb_S512x1_S512x1_0_0

theorem hz2 : (![0, 0] : Fin 2 → Nat) = fun _ => 0 := funext fun a => by fin_cases a <;> rfl

set_option maxHeartbeats 1000000 in
theorem sound_kernel0 (c : Dev nD) (E : Set ℕ) (i : grid0.Coords)
    (arg1 : Memref sig .tc .vmem S512x512 .f32) (harg1 : arg1.IsWhole) (arg2 : Memref sig .tc .vmem S512x512 .bf16) (harg2 : arg2.IsWhole)
    (arg3 : Memref sig .tc .vmem S512x1 .f32) (harg3 : arg3.IsWhole)
    (x0 : Vec F S512x512 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (k0_pay2 x0)
              ∗ owns (c : Thread nD τ) arg3 fullShare (k0_pay3 x0)) -∗ K ⟨⟩))
      ⊢ wp frame (wpE (defs₀ (F := F)) Variants.none c none) E (cc0__normalize_kernel i arg1 harg1 arg2 harg2 arg3 harg3) K := by
  simp only [cc0__normalize_kernel_eq_skeleton]; unfold cc0__normalize_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    rw [View.read_writes_eq_canon _ _ _ (View.cover_of_tiled _ S512x512.size (by rfl)),
      View.canon_unit_zero hz2, View.readAt_eq_ld, View.ld_unit_zero (S := S512x512) hz2]
  · iexists _; isplitr
    swap; · iexact H2
    ipureintro
    rw [View.read_writes_eq_canon _ _ _ (View.cover_of_tiled _ S512x1.size (by rfl)),
      View.canon_unit_zero hz2, View.readAt_eq_ld, View.ld_unit_zero (S := S512x512) hz2]

end Cert.Kernel.Hand

end
-- ==== Proof.K.Region0.lean ====
/-
  The first pallas_call (512 rows a point, eight points, every block inside its array) as the pipeline rule wants it,
  at any float instance and at any contents V of the core's buffers when the call is entered: what each staging
  buffer holds after the body at each point — the input its block of rows, the first output that block's scaled
  rows, the second their squared lengths — and that the body, run at a point, leaves exactly that.
-/
import proofs.«139165_j18451179503909_1_alg».proof.Proof.Gen.Kernel.Launch
import proofs.«139165_j18451179503909_1_alg».proof.Proof.Gen.Kernel.Skeleton
import proofs.«139165_j18451179503909_1_alg».proof.Proof.Gen.Kernel.Points
import proofs.«139165_j18451179503909_1_alg».proof.Proof.K.Body0
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's current staging buffer holds its block at every point, for any proof data over V whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The proof data of the first pipeline on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay2 (iblk0 V c 0 t)
    | ⟨2, _⟩ => k0_pay3 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = k0_pay2 (iblk0 V c 0 t) := by dsimp only [dat0]
theorem after0_2 (c : Dev nD) (t : Fin cfg0.N) : (dat0 V c).after 2 t = k0_pay3 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline rule's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
/-
  The second normalising kernel's body (1280 rows a point), run once on whole staging buffers: from the input buffer at
  contents x and the two output buffers at anything, it ends with the input as it was, the first output at the
  scaled rows of x and the second at their squared lengths — the two stored values as functions of the one load.
-/
import proofs.«139165_j18451179503909_1_alg».proof.Proof.Gen.Kernel.Launch
import proofs.«139165_j18451179503909_1_alg».proof.Proof.Gen.Kernel.Skeleton
import proofs.«139165_j18451179503909_1_alg».proof.Proof.Gen.Kernel.Points
import proofs.«139165_j18451179503909_1_alg».proof.Proof.K.Body0
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The two rectangles the body's accesses use: each the whole buffer. -/
abbrev rA1 : Rect S1280x512 := Rect.unit (s := S1280x512) ![0, 0] S1280x512.size inb_S1280x512_S1280x512_0_0
abbrev rB1 : Rect S1280x1 := Rect.unit (s := S1280x1) ![0, 0] S1280x1.size inb_S1280x1_S1280x1_0_0

set_option maxHeartbeats 1000000 in
theorem sound_kernel1 (c : Dev nD) (E : Set ℕ) (i : grid1.Coords)
    (arg1 : Memref sig .tc .vmem S1280x512 .f32) (harg1 : arg1.IsWhole) (arg2 : Memref sig .tc .vmem S1280x512 .bf16) (harg2 : arg2.IsWhole)
    (arg3 : Memref sig .tc .vmem S1280x1 .f32) (harg3 : arg3.IsWhole)
    (x0 : Vec F S1280x512 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (k1_pay2 x0)
              ∗ owns (c : Thread nD τ) arg3 fullShare (k1_pay3 x0)) -∗ K ⟨⟩))
      ⊢ wp frame (wpE (defs₀ (F := F)) Variants.none c none) E (cc1__normalize_kernel i arg1 harg1 arg2 harg2 arg3 harg3) K := by
  simp only [cc1__normalize_kernel_eq_skeleton]; unfold cc1__normalize_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    rw [View.read_writes_eq_canon _ _ _ (View.cover_of_tiled _ S1280x512.size (by rfl)),
      View.canon_unit_zero hz2, View.readAt_eq_ld, View.ld_unit_zero (S := S1280x512) hz2]
  · iexists _; isplitr
    swap; · iexact H2
    ipureintro
    rw [View.read_writes_eq_canon _ _ _ (View.cover_of_tiled _ S1280x1.size (by rfl)),
      View.canon_unit_zero hz2, View.readAt_eq_ld, View.ld_unit_zero (S := S1280x512) hz2]

end Cert.Kernel.Hand

end
-- ==== Proof.K.Body2.lean ====
/-
  The distance kernel's body, run once on whole staging buffers: from the four input buffers at contents x0 (512
  scaled rows), x1 (their squared lengths, a column), x2 (1280 scaled rows), x3 (their squared lengths, a row) and
  the output buffer at anything, it ends with the inputs as they were and the output at the one stored value, a
  function of the four loads.
-/
import proofs.«139165_j18451179503909_1_alg».proof.Proof.Gen.Kernel.Launch
import proofs.«139165_j18451179503909_1_alg».proof.Proof.Gen.Kernel.Skeleton
import proofs.«139165_j18451179503909_1_alg».proof.Proof.Gen.Kernel.Points
import proofs.«139165_j18451179503909_1_alg».proof.Proof.K.Body0
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
theorem sound_kernel2 (c : Dev nD) (E : Set ℕ) (i : grid2.Coords)
    (arg2 : Memref sig .tc .vmem S512x512 .bf16) (harg2 : arg2.IsWhole) (arg3 : Memref sig .tc .vmem S512x1 .f32) (harg3 : arg3.IsWhole)
    (arg4 : Memref sig .tc .vmem S1280x512 .bf16) (harg4 : arg4.IsWhole) (arg5 : Memref sig .tc .vmem S1x1280 .f32) (harg5 : arg5.IsWhole)
    (arg6 : Memref sig .tc .vmem S512x1280 .f32) (harg6 : arg6.IsWhole)
    (x0 : Vec F S512x512 .bf16) (x1 : Vec F S512x1 .f32) (x2 : Vec F S1280x512 .bf16) (x3 : Vec F S1x1280 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
              ∗ owns (c : Thread nD τ) arg5 fullShare x3 ∗ owns (c : Thread nD τ) arg6 fullShare (k2_pay1 x0 x2 x1 x3)) -∗ K ⟨⟩))
      ⊢ wp frame (wpE (defs₀ (F := F)) Variants.none c none) E (cc2__dist_kernel i arg2 harg2 arg3 harg3 arg4 harg4 arg5 harg5 arg6 harg6) K := by
  simp only [cc2__dist_kernel_eq_skeleton]; unfold cc2__dist_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  · iexists _; isplitr
    swap; · iexact H4
    ipureintro
    rw [View.read_writes_eq_canon _ _ _ (View.cover_of_tiled _ S512x1280.size (by rfl)),
      View.canon_unit_zero hz2]
    simp only [View.readAt_eq_ld, View.ld_unit_zero (S := S512x512) hz2, View.ld_unit_zero (S := S1280x512) hz2,
      View.ld_unit_zero (S := S512x1) hz2, View.ld_unit_zero (S := S1x1280) hz2]

end Cert.Kernel.Hand

end
-- ==== Proof.K.Forget.lean ====
/-
  The second and third pallas_calls for a claim that reads none of the arrays they write: at any float instance and any
  contents V of the core's buffers when the call is entered, proof data that says NOTHING of what the body leaves in a
  staging buffer — whatever it is handed, the body runs, faults nowhere and hands every buffer back. (At the word
  level a sum along a row is a function of the whole block, so what a block that overhangs its array leaves on the
  rows inside the array is not a function of the arguments; a claim about termination and the arguments alone does not
  need it to be.)
-/
import proofs.«139165_j18451179503909_1_alg».proof.Proof.Gen.Kernel.Launch
import proofs.«139165_j18451179503909_1_alg».proof.Proof.Gen.Kernel.Skeleton
import proofs.«139165_j18451179503909_1_alg».proof.Proof.Gen.Kernel.Points
import proofs.«139165_j18451179503909_1_alg».proof.Proof.K.Body1
import proofs.«139165_j18451179503909_1_alg».proof.Proof.K.Body2
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Call 1's proof data with no staging contents named. -/
def datU1 (c : Dev nD) : Dat τ (Elt F) Unit ℕ (UR sig nD τ) ℕ cfg1 c where
  A w := V c (Pipeline.arrRef spec1 w)
  after w t := Dat.unnamed w t
  Φ _ := Pipeline.ΦA spec1 c
  q _ := fullShare
  owed _ := 0

/-- Call 2's. -/
def datU2 (c : Dev nD) : Dat τ (Elt F) Unit ℕ (UR sig nD τ) ℕ cfg2 c where
  A w := V c (Pipeline.arrRef spec2 w)
  after w t := Dat.unnamed w t
  Φ _ := Pipeline.ΦA spec2 c
  q _ := fullShare
  owed _ := 0

/-- The body of call 1 at any point, every buffer handed over at any contents and taken back at any. -/
theorem body_forget1 (c : Dev nD) :
    BodyObligation (datU1 (F := F) V c) (defs₀ (F := F)) Variants.none () Set.univ (fun _ => true) := fun t => by
  rw [bigSep_W1]; try rw [bigSep_W1]
  simp only
  rw [show (datU1 V c).Φ t.succ = (datU1 V c).Φ t.castSucc from rfl,
    show (datU1 V c).owesAt () t.succ = (datU1 V c).owesAt () t.castSucc from rfl]
  iintro ⟨HΦ, Ho, ⟨%X0, H0⟩, ⟨%X1, H1⟩, ⟨%X2, H2⟩⟩
  iapply (sound_kernel1 (F := F) c Set.univ (grid1.coords t) (win1_0.stage (cfg1.slots t 0)) (hstage1_0 ((cfg1.slots t 0).cast nbuf1_0))
    (win1_1.stage (cfg1.slots t 1)) (hstage1_1 ((cfg1.slots t 1).cast nbuf1_1)) (win1_2.stage (cfg1.slots t 2)) (hstage1_2 ((cfg1.slots t 2).cast nbuf1_2)) X0 _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexists _; iexact H0
  isplitl [H1]; · iexists _; iexact H1
  iexists _; iexact H2

/-- The body of call 2 likewise. -/
theorem body_forget2 (c : Dev nD) :
    BodyObligation (datU2 (F := F) V c) (defs₀ (F := F)) Variants.none () Set.univ (fun _ => true) := fun t => by
  rw [bigSep_W2]; try rw [bigSep_W2]
  simp only
  rw [show (datU2 V c).Φ t.succ = (datU2 V c).Φ t.castSucc from rfl,
    show (datU2 V c).owesAt () t.succ = (datU2 V c).owesAt () t.castSucc from rfl]
  iintro ⟨HΦ, Ho, ⟨%X0, H0⟩, ⟨%X1, H1⟩, ⟨%X2, H2⟩, ⟨%X3, H3⟩, ⟨%X4, H4⟩⟩
  iapply (sound_kernel2 (F := F) c Set.univ (grid2.coords t) (win2_0.stage (cfg2.slots t 0)) (hstage2_0 ((cfg2.slots t 0).cast nbuf2_0))
    (win2_1.stage (cfg2.slots t 1)) (hstage2_1 ((cfg2.slots t 1).cast nbuf2_1)) (win2_2.stage (cfg2.slots t 2)) (hstage2_2 ((cfg2.slots t 2).cast nbuf2_2))
    (win2_3.stage (cfg2.slots t 3)) (hstage2_3 ((cfg2.slots t 3).cast nbuf2_3)) (win2_4.stage (cfg2.slots t 4)) (hstage2_4 ((cfg2.slots t 4).cast nbuf2_4)) X0 X1 X2 X3 _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexists _; iexact H0
  isplitl [H1]; · iexists _; iexact H1
  isplitl [H2]; · iexists _; iexact H2
  isplitl [H3]; · iexists _; iexact H3
  iexists _; iexact H4

end Cert.Kernel.Hand

end
-- ==== Proof.K.Records.lean ====
/-
  The second and third pallas_calls of the word-level program as steps between thread states: each is entered from
  every unscoped buffer of the core at a valuation given when the call is reached, and left with the arrays it writes
  at SOME contents and every other buffer as entered — its windows' proof data say nothing of what the body leaves.
-/
import proofs.«139165_j18451179503909_1_alg».proof.Proof.Gen.Kernel.Launch
import proofs.«139165_j18451179503909_1_alg».proof.Proof.Gen.Kernel.Skeleton
import proofs.«139165_j18451179503909_1_alg».proof.Proof.Gen.Kernel.Points
import proofs.«139165_j18451179503909_1_alg».proof.Proof.K.Region0
import proofs.«139165_j18451179503909_1_alg».proof.Proof.K.Forget
import proofs.«139165_j18451179503909_1_alg».proof.Proof.Gen.Kernel.Regions
import Idealize.ShloMosaic.Lib.Pipeline.RegionsLoop
import Idealize.ShloMosaic.Lib.Pipeline.FrameSuffix
import Idealize.ShloMosaic.Lib.Pipeline.Regions
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.Pipeline (RDat)

variable (m : (ℓ : Loc nD τ sig) → Buf (Elt F) ℓ) (ρ : Dev nD → PrngReg)

/-- No pallas_call has a prefetched table. -/
abbrev admK : (p : Fin 3) → (pcfgs (F := F) p).Adm := fun p => (cfgs p).toPCfg_adm
abbrev 𝒱₀ : Variants := Variants.none
abbrev L : GSem nD τ sig → Finset Unit := fun _ => ∅
abbrev lv : GSem nD τ sig → Unit → ℕ := fun _ _ => 0

/-- The core's buffers at launch, read at the TensorCore's references. -/
abbrev V0 (c : Dev nD) (b : Ref sig .tc) : Buf (Elt F) ((c : Thread nD τ).loc b) := m ((c : Thread nD τ).loc b)

/-- A valuation read at the TensorCore's references. -/
abbrev atTc (W : Dev nD → Valuation τ sig (Elt F)) (c : Dev nD) (b : Ref sig .tc) : Buf (Elt F) ((c : Thread nD τ).loc b) := W c b

/-- Every pipeline's proof data, the later two at entry contents given when they are reached — a literal match. -/
def pds (Wa Wb : Dev nD → Valuation τ sig (Elt F)) :
    (p : Fin 3) → (c : Dev nD) → Dat τ (Elt F) Unit ℕ (UR sig nD τ) ℕ (Pipeline.pin (pcfgs (F := F)) admK p) c
  | ⟨0, _⟩ => fun c => dat0 (V0 m) c
  | ⟨1, _⟩ => fun c => datU1 (atTc Wa) c
  | ⟨2, _⟩ => fun c => datU2 (atTc Wb) c

/-- The same read relationally, the later two with every window forgotten. -/
def rds (Wa Wb : Dev nD → Valuation τ sig (Elt F)) :
    (p : Fin 3) → (c : Dev nD) → RDat τ (Elt F) Unit ℕ (UR sig nD τ) ℕ (Pipeline.pin (pcfgs (F := F)) admK p) c
  | ⟨0, _⟩ => fun c => (dat0 (V0 m) c).toR
  | ⟨1, _⟩ => fun c => (datU1 (atTc Wa) c).toRForget fun _ => true
  | ⟨2, _⟩ => fun c => (datU2 (atTc Wb) c).toRForget fun _ => true

/-- What rides beside the buffers between items: the generator register at some state, and nothing owed. -/
abbrev Rr (c : Dev nD) : sProp 𝕄 := iprop((∃ r, prngReg c r) ∗ ∃ W, owes (c : Thread nD τ) (0 : CellTallies nD τ sig Unit) W)

/-- Contents known on one core, given to every core (elsewhere a default): the later items' data are stated per core. -/
def spread {β : Dev nD → Type} (c : Dev nD) (x : β c) (d : (c' : Dev nD) → β c') : (c' : Dev nD) → β c' :=
  fun c' => if h : c = c' then h ▸ x else d c'

theorem spread_self {β : Dev nD → Type} (c : Dev nD) (x : β c) (d : (c' : Dev nD) → β c') : spread c x d c = x := by
  unfold spread; rw [dif_pos rfl]

/-- A valuation with the second call's two result arrays at given contents. -/
abbrev upd1 (W : Valuation τ sig (Elt F)) (c : Dev nD) (G1 : Buf (Elt F) ((c : Thread nD τ).loc main_v1_0)) (G2 : Buf (Elt F) ((c : Thread nD τ).loc main_v1_1)) :
    Valuation τ sig (Elt F) :=
  Function.update (Function.update W (Proc.devRef .tc main_v1_0) G1) (Proc.devRef .tc main_v1_1) G2

set_option backward.isDefEq.respectTransparency.types false in
/-- The second pallas_call over the thread state: entered from every unscoped buffer at W, left with its two result
    arrays at SOME contents and every other buffer as entered. -/
def reg1 (Wa Wb : Dev nD → Valuation τ sig (Elt F)) :
    Pipeline.RDat.RegionSeg (pcfgs (F := F)) admK (rds m Wa Wb) () defs₀ 𝒱₀ L lv 1 where
  win := launch1.win.to₀
  block_pos := launch1.block_pos
  stage_whole := launch1.stage_whole
  K := PEmpty
  osem k := k.elim
  ho := Pipeline.OwnSemFacts.none _
  hbody c := (body_forget1 (atTc Wa) c).toRForget
  hwaits := Pipeline.RDat.hwaits_of_owed_zero _ _ _ _ L lv 1 fun _ _ => rfl
  pre c := iprop(StableHlo.held (c : Thread nD τ) (Pipeline.ucRefs τ sig) (Wa c) ∗ Rr c)
  post c := iprop(∃ (G1 : (c' : Dev nD) → Buf (Elt F) ((c' : Thread nD τ).loc main_v1_0)) (G2 : (c' : Dev nD) → Buf (Elt F) ((c' : Thread nD τ).loc main_v1_1)),
    StableHlo.held (c : Thread nD τ) (Pipeline.ucRefs τ sig) (upd1 (Wa c) c (G1 c) (G2 c)) ∗ Rr c)
  X c := iprop(∃ r, prngReg c r)
  Y c := iprop(∃ r, prngReg c r)
  Z c := Pipeline.unscopedRest (Ix := Unit) (Name := ℕ) (U := UR sig nD τ) (Lvl := ℕ) spec1 c (atTc Wa c)
  hentry c := by
    rw [Pipeline.ownSems0_none]
    have hsplit := Pipeline.RDat.arrays_of_unscopedBufs (p := 1) (pcfgs (F := F)) admK (rds m Wa Wb) launch1.win launch1.arr_whole c
      (fun w => (datU1 (atTc Wa) c).share_full (fun _ => rfl) w) (atTc Wa c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rds m Wa Wb 1 c).Φ 0 = Pipeline.ΦA spec1 c from rfl]; unfold Pipeline.ΦA
    iintro ⟨Hp, -, Hr⟩
    isplitl [Hr]; · iexact Hr
    iexact Hp
  hout c := by
    rw [Pipeline.ownSems0_none, show (rds m Wa Wb 1 c).Φ (Fin.last _) = Pipeline.ΦA spec1 c from rfl]; unfold Pipeline.ΦA
    iintro ⟨Hr, Hp⟩
    isplitl [Hp]; · iexact Hp
    isplitr; · iempintro
    iexact Hr
  hexit c := by
    unfold Pipeline.RDat.arraysAt
    rw [bigSep_W1]
    iintro ⟨⟨⟨%F0, %h0, A0⟩, ⟨%F1, -, A1⟩, ⟨%F2, -, A2⟩⟩, HO, HY, Hrest⟩
    have e0 : F0 = (rds m Wa Wb 1 c).A 0 := by
      have := congrFun (Pipeline.RDat.ArrAt_in (rds m Wa Wb 1 c) 0 rfl (Pipeline.pin (pcfgs (F := F)) admK 1).N) F0
      exact this.mp h0
    have hjoin := Pipeline.unscopedBufs_of_arrays (p := 1) (pcfgs (F := F)) admK (Ix := Unit) (Name := ℕ) (U := UR sig nD τ) (Lvl := ℕ)
      launch1.win launch1.arr_whole c (pds m Wa Wb) (fun w => (datU1 (atTc Wa) c).share_full (fun _ => rfl) w)
      (atTc Wa c) (fun b => upd1 (Wa c) c F1 F2 b)
      (fun w => match w with | ⟨0, _⟩ => F0 | ⟨1, _⟩ => F1 | ⟨2, _⟩ => F2)
      (fun w => by
        match w with
        | ⟨0, _⟩ =>
          rw [e0]
          show Wa c (Proc.devRef .tc main_arg1) = upd1 (Wa c) c F1 F2 (Proc.devRef .tc main_arg1)
          unfold upd1
          rw [Function.update_of_ne (StableHlo.devRef_ne_of_ne (by decide) : (Proc.devRef .tc main_arg1 : DevRef τ sig) ≠ Proc.devRef .tc main_v1_1),
            Function.update_of_ne (StableHlo.devRef_ne_of_ne (by decide) : (Proc.devRef .tc main_arg1 : DevRef τ sig) ≠ Proc.devRef .tc main_v1_0)]
        | ⟨1, _⟩ =>
          show F1 = upd1 (Wa c) c F1 F2 (Proc.devRef .tc main_v1_0)
          unfold upd1
          rw [Function.update_of_ne (StableHlo.devRef_ne_of_ne (by decide) : (Proc.devRef .tc main_v1_0 : DevRef τ sig) ≠ Proc.devRef .tc main_v1_1),
            Function.update_self]
        | ⟨2, _⟩ =>
          show F2 = upd1 (Wa c) c F1 F2 (Proc.devRef .tc main_v1_1)
          unfold upd1
          rw [Function.update_self])
      (fun b hb => by
        have h1 : b ≠ main_v1_0 := fun e => hb (Finset.mem_image.mpr ⟨1, Finset.mem_univ _, e.symm⟩)
        have h2 : b ≠ main_v1_1 := fun e => hb (Finset.mem_image.mpr ⟨2, Finset.mem_univ _, e.symm⟩)
        show upd1 (Wa c) c F1 F2 (Proc.devRef .tc b) = Wa c (Proc.devRef .tc b)
        unfold upd1
        rw [Function.update_of_ne (StableHlo.devRef_ne_of_ne h2), Function.update_of_ne (StableHlo.devRef_ne_of_ne h1)])
    rw [Pipeline.unscopedBufs_held] at hjoin
    imodintro
    iexists spread (β := fun c' => Buf (Elt F) ((c' : Thread nD τ).loc main_v1_0)) c F1 (fun c' => Wa c' (Proc.devRef .tc main_v1_0)),
      spread (β := fun c' => Buf (Elt F) ((c' : Thread nD τ).loc main_v1_1)) c F2 (fun c' => Wa c' (Proc.devRef .tc main_v1_1))
    rw [spread_self, spread_self]
    isplitl [A0 A1 A2 Hrest]
    · iapply hjoin
      isplitr [Hrest]
      · unfold Pipeline.Dat.arrays
        rw [bigSep_W1]
        isplitl [A0]; · iexact A0
        isplitl [A1]; · iexact A1
        iexact A2
      · iexact Hrest
    unfold Rr
    isplitl [HY]; · iexact HY
    unfold Pipeline.RDat.owesAt Pipeline.owesWithin
    icases HO with ⟨%W, -, HO⟩; iexists W; iexact HO

/-- A valuation with the third call's result array at given contents. -/
abbrev upd2 (W : Valuation τ sig (Elt F)) (c : Dev nD) (G : Buf (Elt F) ((c : Thread nD τ).loc main_v3)) : Valuation τ sig (Elt F) :=
  Function.update W (Proc.devRef .tc main_v3) G

set_option maxHeartbeats 4000000 in
set_option backward.isDefEq.respectTransparency.types false in
/-- The third pallas_call over the thread state: entered from every unscoped buffer at W, left with its result array at
    SOME contents and every other buffer as entered. -/
def reg2 (Wa Wb : Dev nD → Valuation τ sig (Elt F)) :
    Pipeline.RDat.RegionSeg (pcfgs (F := F)) admK (rds m Wa Wb) () defs₀ 𝒱₀ L lv 2 where
  win := launch2.win.to₀
  block_pos := launch2.block_pos
  stage_whole := launch2.stage_whole
  K := PEmpty
  osem k := k.elim
  ho := Pipeline.OwnSemFacts.none _
  hbody c := (body_forget2 (atTc Wb) c).toRForget
  hwaits := Pipeline.RDat.hwaits_of_owed_zero _ _ _ _ L lv 2 fun _ _ => rfl
  pre c := iprop(StableHlo.held (c : Thread nD τ) (Pipeline.ucRefs τ sig) (Wb c) ∗ Rr c)
  post c := iprop(∃ G, StableHlo.held (c : Thread nD τ) (Pipeline.ucRefs τ sig) (upd2 (Wb c) c G) ∗ Rr c)
  X c := iprop(∃ r, prngReg c r)
  Y c := iprop(∃ r, prngReg c r)
  Z c := Pipeline.unscopedRest (Ix := Unit) (Name := ℕ) (U := UR sig nD τ) (Lvl := ℕ) spec2 c (atTc Wb c)
  hentry c := by
    rw [Pipeline.ownSems0_none]
    have hsplit := Pipeline.RDat.arrays_of_unscopedBufs (p := 2) (pcfgs (F := F)) admK (rds m Wa Wb) launch2.win launch2.arr_whole c
      (fun w => (datU2 (atTc Wb) c).share_full (fun _ => rfl) w) (atTc Wb c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rds m Wa Wb 2 c).Φ 0 = Pipeline.ΦA spec2 c from rfl]; unfold Pipeline.ΦA
    iintro ⟨Hp, -, Hr⟩
    isplitl [Hr]; · iexact Hr
    iexact Hp
  hout c := by
    rw [Pipeline.ownSems0_none, show (rds m Wa Wb 2 c).Φ (Fin.last _) = Pipeline.ΦA spec2 c from rfl]; unfold Pipeline.ΦA
    iintro ⟨Hr, Hp⟩
    isplitl [Hp]; · iexact Hp
    isplitr; · iempintro
    iexact Hr
  hexit c := by
    unfold Pipeline.RDat.arraysAt
    rw [bigSep_W2]
    iintro ⟨⟨⟨%F0, %h0, A0⟩, ⟨%F1, %h1, A1⟩, ⟨%F2, %h2, A2⟩, ⟨%F3, %h3, A3⟩, ⟨%F4, -, A4⟩⟩, HO, HY, Hrest⟩
    have e0 : F0 = (rds m Wa Wb 2 c).A 0 :=
      (congrFun (Pipeline.RDat.ArrAt_in (rds m Wa Wb 2 c) 0 rfl (Pipeline.pin (pcfgs (F := F)) admK 2).N) F0).mp h0
    have e1 : F1 = (rds m Wa Wb 2 c).A 1 :=
      (congrFun (Pipeline.RDat.ArrAt_in (rds m Wa Wb 2 c) 1 rfl (Pipeline.pin (pcfgs (F := F)) admK 2).N) F1).mp h1
    have e2 : F2 = (rds m Wa Wb 2 c).A 2 :=
      (congrFun (Pipeline.RDat.ArrAt_in (rds m Wa Wb 2 c) 2 rfl (Pipeline.pin (pcfgs (F := F)) admK 2).N) F2).mp h2
    have e3 : F3 = (rds m Wa Wb 2 c).A 3 :=
      (congrFun (Pipeline.RDat.ArrAt_in (rds m Wa Wb 2 c) 3 rfl (Pipeline.pin (pcfgs (F := F)) admK 2).N) F3).mp h3
    have hjoin := Pipeline.unscopedBufs_of_arrays (p := 2) (pcfgs (F := F)) admK (Ix := Unit) (Name := ℕ) (U := UR sig nD τ) (Lvl := ℕ)
      launch2.win launch2.arr_whole c (pds m Wa Wb) (fun w => (datU2 (atTc Wb) c).share_full (fun _ => rfl) w)
      (atTc Wb c) (fun b => upd2 (Wb c) c F4 b)
      (fun w => match w with | ⟨0, _⟩ => F0 | ⟨1, _⟩ => F1 | ⟨2, _⟩ => F2 | ⟨3, _⟩ => F3 | ⟨4, _⟩ => F4)
      (fun w => by
        match w with
        | ⟨0, _⟩ =>
          rw [e0]
          show Wb c (Proc.devRef .tc main_v0_0) = upd2 (Wb c) c F4 (Proc.devRef .tc main_v0_0)
          unfold upd2
          rw [Function.update_of_ne (StableHlo.devRef_ne_of_ne (by decide) : (Proc.devRef .tc main_v0_0 : DevRef τ sig) ≠ Proc.devRef .tc main_v3)]
        | ⟨1, _⟩ =>
          rw [e1]
          show Wb c (Proc.devRef .tc main_v0_1) = upd2 (Wb c) c F4 (Proc.devRef .tc main_v0_1)
          unfold upd2
          rw [Function.update_of_ne (StableHlo.devRef_ne_of_ne (by decide) : (Proc.devRef .tc main_v0_1 : DevRef τ sig) ≠ Proc.devRef .tc main_v3)]
        | ⟨2, _⟩ =>
          rw [e2]
          show Wb c (Proc.devRef .tc main_v1_0) = upd2 (Wb c) c F4 (Proc.devRef .tc main_v1_0)
          unfold upd2
          rw [Function.update_of_ne (StableHlo.devRef_ne_of_ne (by decide) : (Proc.devRef .tc main_v1_0 : DevRef τ sig) ≠ Proc.devRef .tc main_v3)]
        | ⟨3, _⟩ =>
          rw [e3]
          show Wb c (Proc.devRef .tc main_v2) = upd2 (Wb c) c F4 (Proc.devRef .tc main_v2)
          unfold upd2
          rw [Function.update_of_ne (StableHlo.devRef_ne_of_ne (by decide) : (Proc.devRef .tc main_v2 : DevRef τ sig) ≠ Proc.devRef .tc main_v3)]
        | ⟨4, _⟩ =>
          show F4 = upd2 (Wb c) c F4 (Proc.devRef .tc main_v3)
          unfold upd2
          rw [Function.update_self])
      (fun b hb => by
        have h4 : b ≠ main_v3 := fun e => hb (Finset.mem_image.mpr ⟨4, Finset.mem_univ _, e.symm⟩)
        show upd2 (Wb c) c F4 (Proc.devRef .tc b) = Wb c (Proc.devRef .tc b)
        unfold upd2
        rw [Function.update_of_ne (StableHlo.devRef_ne_of_ne h4)])
    rw [Pipeline.unscopedBufs_held] at hjoin
    imodintro
    iexists F4
    isplitl [A0 A1 A2 A3 A4 Hrest]
    · iapply hjoin
      isplitr [Hrest]
      · unfold Pipeline.Dat.arrays
        rw [bigSep_W2]
        isplitl [A0]; · iexact A0
        isplitl [A1]; · iexact A1
        isplitl [A2]; · iexact A2
        isplitl [A3]; · iexact A3
        iexact A4
      · iexact Hrest
    unfold Rr
    isplitl [HY]; · iexact HY
    unfold Pipeline.RDat.owesAt Pipeline.owesWithin
    icases HO with ⟨%W, -, HO⟩; iexists W; iexact HO

end Cert.Kernel.Hand

end
-- ==== Proof.K.FrameTail.lean ====
/-
  The word-level program's frame. The first pallas_call's blocks tile its array, so what it writes is a function of the
  launch memory at any float instance, and it is launched with proof data that names it. What follows — the second
  call, one transpose, the third call — runs after an array whose rows in the last, overhanging block nothing names at
  the word level; so each later item's proof data is chosen only when the item is reached, from whatever the buffers
  then hold, and says nothing of what its body leaves. The arguments are read by the calls and written by none.
-/
import proofs.«139165_j18451179503909_1_alg».proof.Proof.Gen.Kernel.Launch
import proofs.«139165_j18451179503909_1_alg».proof.Proof.Gen.Kernel.Skeleton
import proofs.«139165_j18451179503909_1_alg».proof.Proof.Gen.Kernel.Points
import proofs.«139165_j18451179503909_1_alg».proof.Proof.K.Records
import proofs.«139165_j18451179503909_1_alg».proof.Proof.Gen.Kernel.Regions
import Idealize.ShloMosaic.Lib.Pipeline.RegionsLoop
import Idealize.ShloMosaic.Lib.Pipeline.FrameSuffix
import Idealize.ShloMosaic.Lib.Pipeline.Regions
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.Pipeline (RDat)

variable (m : (ℓ : Loc nD τ sig) → Buf (Elt F) ℓ) (ρ : Dev nD → PrngReg)

/-- What @main does after the first call: the second call, the transpose, the third call, the return. -/
abbrev k3 : PUnit → Prog (TpuEff nD τ sig (Elt F) (Pipeline.Sig Λ₀ (Fin 3) fun p => (pcfgs (F := F) p).Adm) .tc) PUnit := fun _ => .ret ⟨⟩
abbrev k2 : PUnit → Prog (TpuEff nD τ sig (Elt F) (Pipeline.Sig Λ₀ (Fin 3) fun p => (pcfgs (F := F) p).Adm) .tc) PUnit := fun _ =>
  .op (.customCall (Pipeline.entry 2) ()) k3
abbrev k1 : PUnit → Prog (TpuEff nD τ sig (Elt F) (Pipeline.Sig Λ₀ (Fin 3) fun p => (pcfgs (F := F) p).Adm) .tc) PUnit := fun _ =>
  StableHlo.seq hostOps2 >>= k2
abbrev ktail : PUnit → Prog (TpuEff nD τ sig (Elt F) (Pipeline.Sig Λ₀ (Fin 3) fun p => (pcfgs (F := F) p).Adm) .tc) PUnit := fun _ =>
  .op (.customCall (Pipeline.entry 1) ()) k1

theorem main_eq (c : Dev nD) : main (F := F) c = .op (.customCall (Pipeline.entry 0) ()) ktail :=
  (main_chain c).trans (by chain_rfl)

/-- The core's buffers once the first call has run: its arrays at what its write-backs leave, every other buffer as launched. -/
def W1 (c : Dev nD) : Valuation τ sig (Elt F) :=
  Pipeline.withArrays spec0 c (fun b => m (c, b)) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = m (c, Proc.devRef .tc b) := by
  unfold W1; exact Pipeline.withArrays_of_ne spec0 c _ _ b hb

/-- After the second call, its two result arrays at contents G1, G2; after the transpose. -/
abbrev W2 (G1 : (c' : Dev nD) → Buf (Elt F) ((c' : Thread nD τ).loc main_v1_0)) (G2 : (c' : Dev nD) → Buf (Elt F) ((c' : Thread nD τ).loc main_v1_1))
    (c : Dev nD) : Valuation τ sig (Elt F) := upd1 (W1 m c) c (G1 c) (G2 c)
abbrev W3 (G1 : (c' : Dev nD) → Buf (Elt F) ((c' : Thread nD τ).loc main_v1_0)) (G2 : (c' : Dev nD) → Buf (Elt F) ((c' : Thread nD τ).loc main_v1_1))
    (c : Dev nD) : Valuation τ sig (Elt F) := StableHlo.after hostOps2 (W2 m G1 G2 c)

/-- The second argument's buffer, read off the last valuation, is as launched: no call has it as a result and the
    transpose writes another buffer. -/
theorem last_main_arg1 (G1 : (c' : Dev nD) → Buf (Elt F) ((c' : Thread nD τ).loc main_v1_0)) (G2 : (c' : Dev nD) → Buf (Elt F) ((c' : Thread nD τ).loc main_v1_1))
    (c : Dev nD) (G3 : Buf (Elt F) ((c : Thread nD τ).loc main_v3)) :
    upd2 (W3 m G1 G2 c) c G3 (Proc.devRef .tc main_arg1) = m ((c.tc : Thread nD τ).loc main_arg1) := by
  unfold upd2
  rw [Function.update_of_ne (StableHlo.devRef_ne_of_ne (by decide) : (Proc.devRef .tc main_arg1 : DevRef τ sig) ≠ Proc.devRef .tc main_v3)]
  show StableHlo.after hostOps2 (W2 m G1 G2 c) (Proc.devRef .tc main_arg1) = _
  rw [StableHlo.after_of_writes_sub hostOps2 _ hostOps2_writes (show main_arg1 ∉ hostOps2_W from by decide)]
  show upd1 (W1 m c) c (G1 c) (G2 c) (Proc.devRef .tc main_arg1) = _
  unfold upd1
  rw [Function.update_of_ne (StableHlo.devRef_ne_of_ne (by decide) : (Proc.devRef .tc main_arg1 : DevRef τ sig) ≠ Proc.devRef .tc main_v1_1),
    Function.update_of_ne (StableHlo.devRef_ne_of_ne (by decide) : (Proc.devRef .tc main_arg1 : DevRef τ sig) ≠ Proc.devRef .tc main_v1_0),
    W1_of_ne m c main_arg1 (by decide)]

/-- The first call's arrays, read off the last valuation, are what that call left: the later items write none of them. -/
theorem last_arr0 (G1 : (c' : Dev nD) → Buf (Elt F) ((c' : Thread nD τ).loc main_v1_0)) (G2 : (c' : Dev nD) → Buf (Elt F) ((c' : Thread nD τ).loc main_v1_1))
    (c : Dev nD) (G3 : Buf (Elt F) ((c : Thread nD τ).loc main_v3)) (w : Fin cfg0.W) :
    upd2 (W3 m G1 G2 c) c G3 (Proc.devRef .tc (Pipeline.arrRef spec0 w)) = (dat0 (V0 m) c).arrAt w cfg0.N := by
  have key : ∀ b : Ref sig .tc, b ≠ main_v3 → b ∉ hostOps2_W → b ≠ main_v1_1 → b ≠ main_v1_0 →
      upd2 (W3 m G1 G2 c) c G3 (Proc.devRef .tc b) = W1 m c (Proc.devRef .tc b) := fun b h3 hW h11 h10 => by
    unfold upd2
    rw [Function.update_of_ne (StableHlo.devRef_ne_of_ne h3)]
    show StableHlo.after hostOps2 (W2 m G1 G2 c) (Proc.devRef .tc b) = _
    rw [StableHlo.after_of_writes_sub hostOps2 _ hostOps2_writes hW]
    show upd1 (W1 m c) c (G1 c) (G2 c) (Proc.devRef .tc b) = _
    unfold upd1
    rw [Function.update_of_ne (StableHlo.devRef_ne_of_ne h11), Function.update_of_ne (StableHlo.devRef_ne_of_ne h10)]
  match w with
  | ⟨0, _⟩ => exact (key main_arg0 (by decide) (by decide) (by decide) (by decide)).trans (W1_arr m c 0)
  | ⟨1, _⟩ => exact (key main_v0_0 (by decide) (by decide) (by decide) (by decide)).trans (W1_arr m c 1)
  | ⟨2, _⟩ => exact (key main_v0_1 (by decide) (by decide) (by decide) (by decide)).trans (W1_arr m c 2)

set_option maxHeartbeats 4000000 in
set_option backward.isDefEq.respectTransparency.types false in
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_region_owing_pf_tail (pcfgs (F := F)) admK (pds m (W1 m) (W1 m)) () cellOf_inj (0 : Fin 3)
    launch0.win.to₀ (Pipeline.OwnSemFacts.none _) (Pipeline.PreFacts.none _) emb₁ defs₀ 𝒱₀ m ρ main ktail
    (hmain := main_eq) (hbody := fun c => (body_obligation0 (V0 m) c).loose)
    (hne := launch0.block_pos) (harr := launch0.arr_whole) (hstage := launch0.stage_whole)
    (hshare := fun c w => (dat0 (V0 m) c).share_full (fun _ => rfl) w) (hdistinct := launch0.win.arr_inj)
    (O₀ := 0) (howed₀ := fun _ => rfl) (L := L) (lv := lv) (hL := fun _ _ => rfl)
    (hwaits := Pipeline.hwaits_of_owed_zero _ _ _ _ L lv 0 fun _ _ => rfl)
    (G := fun _ => iprop(emp)) (G' := fun _ => iprop(emp))
    (u₀ := initOf (Pipeline.cells cfgs cellOf_inj) (Pipeline.launchToks cfgs cellOf_inj))
    (hu₀ := ?hu₀) (hglob := ?hglob) (hA := fun c w => rfl) (hpf := fun c k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V0 m c))
    (Y' := fun c => iprop(emp))
    (Z' := fun c => iprop(∃ G1 G2 G3, Pipeline.unscopedRest (Ix := Unit) (Name := ℕ) (U := UR sig nD τ) (Lvl := ℕ) spec0 c
        (fun b => upd2 (W3 m G1 G2 c) c G3 b)))
    (hX := ?hX) (hin := ?hin) (hout := ?hout) (htail := ?htail)
    (QY := fun c s => s.mem ((c.tc : Thread nD τ).loc main_arg1) = m ((c.tc : Thread nD τ).loc main_arg1))
    (hY := ?hY) (hQ := ?hQ)
  case hu₀ =>
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case hglob =>
    iintro -; imodintro
    iapply (show (BI.emp : sProp 𝕄) ⊢ bigSep Finset.univ (fun _ : Dev nD => (BI.emp : sProp 𝕄)) from by rw [BI.bigSep_emp_const])
    iempintro
  case hX =>
    intro c
    rw [show (pcfgs (F := F) 0).pre = Pipeline.Prefetch.none from rfl, Pipeline.unscopedRestP_none]
    iintro ⟨HU, -, -, -, Hp, -⟩; imodintro
    isplitl [Hp]; · iexists _; iexact Hp
    iexact HU
  case hin =>
    intro c
    rw [show (pds m (W1 m) (W1 m) 0 c).Φ 0 = Pipeline.ΦA spec0 c from rfl]; unfold Pipeline.ΦA
    iintro ⟨Hp, -, Hr⟩
    isplitl [Hr]; · iexact Hr
    iexact Hp
  case hout =>
    intro c
    rw [Pipeline.ownSems0_none, show (pds m (W1 m) (W1 m) 0 c).Φ (Fin.last _) = Pipeline.ΦA spec0 c from rfl]; unfold Pipeline.ΦA
    iintro ⟨Hr, Hp⟩
    isplitl [Hp]; · iexact Hp
    isplitr; · iempintro
    iexact Hr
  case hQ =>
    intro s h c
    exact ⟨((h c).1 0).trans ((dat0 (V0 m) c).arrAt_in 0 rfl _), (h c).2.2⟩
  case hY =>
    intro c s'
    iintro ⟨-, ⟨%G1, %G2, %G3, HU⟩, HSI⟩
    unfold Pipeline.unscopedRest
    ihave Hr := (pointsTo_read_all _ (fun b => (c.tc : Thread nD τ).loc b) (fun b => upd2 (W3 m G1 G2 c) c G3 b) s') $$ [HU HSI]
    · isplitl [HU] <;> iassumption
    icases Hr with ⟨%h, HSI⟩
    imodintro
    isplitr
    · ipureintro
      refine (h main_arg1 (Finset.mem_sdiff.mpr ⟨Finset.mem_filter.mpr ⟨Finset.mem_univ _, by decide⟩, fun hmem => ?_⟩)).trans (last_main_arg1 m G1 G2 c G3)
      obtain ⟨w, -, e⟩ := Finset.mem_image.mp hmem
      exact absurd e ((by decide : ∀ w : Fin 3, Pipeline.arrRef spec0 w ≠ main_arg1) w)
    · iexact HSI
  case htail =>
    intro c Q'
    have hshare0 : ∀ w, (pds m (W1 m) (W1 m) 0 c).share w = fullShare := fun w => (dat0 (V0 m) c).share_full (fun _ => rfl) w
    -- the first call's arrays and the bypassing buffers are every unscoped buffer at W1
    have hjoin0 := Pipeline.unscopedBufs_of_arrays (p := 0) (pcfgs (F := F)) admK (Ix := Unit) (Name := ℕ) (U := UR sig nD τ) (Lvl := ℕ)
      launch0.win launch0.arr_whole c (pds m (W1 m) (W1 m)) hshare0
      (V0 m c) (atTc (W1 m) c) (fun w => (dat0 (V0 m) c).arrAt w cfg0.N)
      (fun w => (W1_arr m c w).symm)
      (fun b hb => W1_of_ne m c b fun w e => hb (Finset.mem_image.mpr ⟨w, Finset.mem_univ _, e⟩))
    rw [Pipeline.unscopedBufs_held] at hjoin0
    rw [← Pipeline.arrays_eq (Pipeline.pin (pcfgs (F := F)) admK) (pds m (W1 m) (W1 m)) 0 c launch0.arr_whole hshare0]
    -- the last valuation's unscoped buffers, split into the first call's arrays and the bypassing buffers
    have hsplitL : ∀ (G1 : (c' : Dev nD) → Buf (Elt F) ((c' : Thread nD τ).loc main_v1_0)) (G2 : (c' : Dev nD) → Buf (Elt F) ((c' : Thread nD τ).loc main_v1_1))
        (G3 : Buf (Elt F) ((c : Thread nD τ).loc main_v3)),
        (StableHlo.held (c : Thread nD τ) (Pipeline.ucRefs τ sig) (upd2 (W3 m G1 G2 c) c G3) : sProp 𝕄)
        ⊢ iprop((pds m (W1 m) (W1 m) 0 c).arrays (fun w => (pds m (W1 m) (W1 m) 0 c).arrAt w (Pipeline.pin (pcfgs (F := F)) admK 0).N)
            ∗ Pipeline.unscopedRest (Ix := Unit) (Name := ℕ) (U := UR sig nD τ) (Lvl := ℕ) spec0 c (fun b => upd2 (W3 m G1 G2 c) c G3 b)) := fun G1 G2 G3 => by
      rw [← Pipeline.unscopedBufs_held, Pipeline.unscopedBufs_split (Pipeline.pin (pcfgs (F := F)) admK) 0 launch0.win.arr_unscoped launch0.win.arr_inj c,
        Pipeline.arrays_eq (Pipeline.pin (pcfgs (F := F)) admK) (pds m (W1 m) (W1 m)) 0 c launch0.arr_whole hshare0]
      exact sep_mono (Entails.of_eq (bigSep_congr fun w _ => congrArg _ (last_arr0 m G1 G2 c G3 w))) .rfl
    -- the second call's step, its thread states spelt out
    have hwp1 := Pipeline.RDat.RegionSeg.wp (pcfgs (F := F)) admK (rds m (W1 m) (W1 m)) () cellOf_inj emb₁ defs₀ 𝒱₀ L lv
      (reg1 m (W1 m) (W1 m)) c none (fun u h => nomatch h) k1 Q'
    dsimp only [reg1] at hwp1
    -- the ghost state of the two later pipelines, summand by summand; what the core owes, opened
    unfold Pipeline.Dat.owesAt Pipeline.owesWithin
    rw [show Pipeline.restGhost (pcfgs (F := F)) admK 0 emb₁ c
          = Pipeline.PerCore.ghostOn (pcfgs (F := F)) (fun _ => admK) emb₁ (Finset.univ.erase 0) c from rfl,
      Pipeline.PerCore.ghostOn_erase (pcfgs (F := F)) (fun _ => admK) emb₁ (show (1 : Fin 3) ∈ Finset.univ.erase 0 from by decide),
      Pipeline.PerCore.ghostOn_erase (pcfgs (F := F)) (fun _ => admK) emb₁ (show (2 : Fin 3) ∈ (Finset.univ.erase 0).erase 1 from by decide)]
    iintro ⟨Hk, Hbd, Ha, HY, HZ, ⟨%W, -, HO⟩, #Hla, ⟨Hg1, Ht1⟩, ⟨Hg2, Ht2⟩, -⟩
    -- every unscoped buffer at W1
    ihave Hh := hjoin0 $$ [Ha HZ]
    · isplitl [Ha]; · iexact Ha
      iexact HZ
    -- THE SECOND CALL
    iapply hwp1
    isplitr [Hbd Hh HY HO Hg1 Ht1]
    swap
    · isplitl [Hbd]; · iexact Hbd
      isplitl [Hh HY HO]
      · isplitl [Hh]; · iexact Hh
        isplitl [HY]; · iexact HY
        iexists W; iexact HO
      isplitr; · iexact Hla
      isplitl [Hg1] <;> iassumption
    iintro ⟨Hbd, Hpost⟩
    icases Hpost with ⟨%G1, %G2, Hh, HR⟩
    -- THE TRANSPOSE
    have hseq := StableHlo.wp_seq (defs := Pipeline.defs (pcfgs (F := F)) defs₀) (Variants.lift 𝒱₀) none Set.univ c (Pipeline.ucRefs τ sig) k2 (K := Q')
      hostOps2 (fun op h => Pipeline.sub_ucRefs op ((List.forall_iff_forall_mem.mp hostOps2_sub) op h))
      (fun op h => (List.forall_iff_forall_mem.mp hostOps2_fresh) op h) (W2 m G1 G2 c)
    have hwp2 := Pipeline.RDat.RegionSeg.wp (pcfgs (F := F)) admK (rds m (W1 m) (W3 m G1 G2)) () cellOf_inj emb₁ defs₀ 𝒱₀ L lv
      (reg2 m (W1 m) (W3 m G1 G2)) c none (fun u h => nomatch h) k3 Q'
    dsimp only [reg2] at hwp2
    iapply hseq $$ [Hbd Hh]
    · isplitl [Hbd] <;> iassumption
    iintro ⟨Hbd, Hh⟩
    -- THE THIRD CALL
    iapply hwp2
    isplitr [Hbd Hh HR Hg2 Ht2]
    swap
    · isplitl [Hbd]; · iexact Hbd
      isplitl [Hh HR]
      · isplitl [Hh]; · iexact Hh
        iexact HR
      isplitr; · iexact Hla
      isplitl [Hg2] <;> iassumption
    iintro ⟨Hbd, Hpost⟩
    icases Hpost with ⟨%G3, Hh, Hp, HOw⟩
    -- THE RETURN
    rw [wp_ret]
    imodintro
    iapply Hk
    ihave Hs := (hsplitL G1 G2 G3) $$ Hh
    icases Hs with ⟨Ha, HU⟩
    isplitl [Ha]; · iexact Ha
    isplitr; · iempintro
    isplitl [HU]
    · iexists G1, G2, G3; iexact HU
    iexact HOw

end Cert.Kernel.Hand

end
-- ==== Proof.KI.Body0.lean ====
/-
  The first normalising kernel's body (512 rows a point), run once on whole staging buffers: from the input buffer at
  contents x and the two output buffers at anything, it ends with the input as it was, the first output at the
  scaled rows of x and the second at their squared lengths — the two stored values as functions of the one load.
-/
import proofs.«139165_j18451179503909_1_alg».proof.Proof.Gen.KernelIdeal.Launch
import proofs.«139165_j18451179503909_1_alg».proof.Proof.Gen.KernelIdeal.Skeleton
import proofs.«139165_j18451179503909_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The two rectangles the body's accesses use: each the whole buffer. -/
abbrev rA0 : Rect S512x512 := Rect.unit (s := S512x512) ![0, 0] S512x512.size inb_S512x512_S512x512_0_0
abbrev rB0 : Rect S512x1 := Rect.unit (s := S512x1) ![0, 0] S512x1.size inb_S512x1_S512x1_0_0

theorem hz2 : (![0, 0] : Fin 2 → Nat) = fun _ => 0 := funext fun a => by fin_cases a <;> rfl

set_option maxHeartbeats 1000000 in
theorem sound_kernel0 (c : Dev nD) (E : Set ℕ) (i : grid0.Coords)
    (arg1 : Memref sig .tc .vmem S512x512 .f32) (harg1 : arg1.IsWhole) (arg2 : Memref sig .tc .vmem S512x512 .bf16) (harg2 : arg2.IsWhole)
    (arg3 : Memref sig .tc .vmem S512x1 .f32) (harg3 : arg3.IsWhole)
    (x0 : Vec F S512x512 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (k0_pay2 x0)
              ∗ owns (c : Thread nD τ) arg3 fullShare (k0_pay3 x0)) -∗ K ⟨⟩))
      ⊢ wp frame (wpE (defs₀ (F := F)) Variants.none c none) E (cc0__normalize_kernel i arg1 harg1 arg2 harg2 arg3 harg3) K := by
  simp only [cc0__normalize_kernel_eq_skeleton]; unfold cc0__normalize_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    rw [View.read_writes_eq_canon _ _ _ (View.cover_of_tiled _ S512x512.size (by rfl)),
      View.canon_unit_zero hz2, View.readAt_eq_ld, View.ld_unit_zero (S := S512x512) hz2]
  · iexists _; isplitr
    swap; · iexact H2
    ipureintro
    rw [View.read_writes_eq_canon _ _ _ (View.cover_of_tiled _ S512x1.size (by rfl)),
      View.canon_unit_zero hz2, View.readAt_eq_ld, View.ld_unit_zero (S := S512x512) hz2]

end Cert.KernelIdeal.Hand

end
-- ==== Proof.KI.Region0.lean ====
/-
  The first pallas_call (512 rows a point, eight points, every block inside its array) as the pipeline rule wants it,
  at any float instance and at any contents V of the core's buffers when the call is entered: what each staging
  buffer holds after the body at each point — the input its block of rows, the first output that block's scaled
  rows, the second their squared lengths — and that the body, run at a point, leaves exactly that.
-/
import proofs.«139165_j18451179503909_1_alg».proof.Proof.Gen.KernelIdeal.Launch
import proofs.«139165_j18451179503909_1_alg».proof.Proof.Gen.KernelIdeal.Skeleton
import proofs.«139165_j18451179503909_1_alg».proof.Proof.Gen.KernelIdeal.Points
import proofs.«139165_j18451179503909_1_alg».proof.Proof.KI.Body0
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's current staging buffer holds its block at every point, for any proof data over V whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The proof data of the first pipeline on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay2 (iblk0 V c 0 t)
    | ⟨2, _⟩ => k0_pay3 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = k0_pay2 (iblk0 V c 0 t) := by dsimp only [dat0]
theorem after0_2 (c : Dev nD) (t : Fin cfg0.N) : (dat0 V c).after 2 t = k0_pay3 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline rule's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/-
  The second normalising kernel's body (1280 rows a point), run once on whole staging buffers: from the input buffer at
  contents x and the two output buffers at anything, it ends with the input as it was, the first output at the
  scaled rows of x and the second at their squared lengths — the two stored values as functions of the one load.
-/
import proofs.«139165_j18451179503909_1_alg».proof.Proof.Gen.KernelIdeal.Launch
import proofs.«139165_j18451179503909_1_alg».proof.Proof.Gen.KernelIdeal.Skeleton
import proofs.«139165_j18451179503909_1_alg».proof.Proof.Gen.KernelIdeal.Points
import proofs.«139165_j18451179503909_1_alg».proof.Proof.KI.Body0
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The two rectangles the body's accesses use: each the whole buffer. -/
abbrev rA1 : Rect S1280x512 := Rect.unit (s := S1280x512) ![0, 0] S1280x512.size inb_S1280x512_S1280x512_0_0
abbrev rB1 : Rect S1280x1 := Rect.unit (s := S1280x1) ![0, 0] S1280x1.size inb_S1280x1_S1280x1_0_0

set_option maxHeartbeats 1000000 in
theorem sound_kernel1 (c : Dev nD) (E : Set ℕ) (i : grid1.Coords)
    (arg1 : Memref sig .tc .vmem S1280x512 .f32) (harg1 : arg1.IsWhole) (arg2 : Memref sig .tc .vmem S1280x512 .bf16) (harg2 : arg2.IsWhole)
    (arg3 : Memref sig .tc .vmem S1280x1 .f32) (harg3 : arg3.IsWhole)
    (x0 : Vec F S1280x512 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (k1_pay2 x0)
              ∗ owns (c : Thread nD τ) arg3 fullShare (k1_pay3 x0)) -∗ K ⟨⟩))
      ⊢ wp frame (wpE (defs₀ (F := F)) Variants.none c none) E (cc1__normalize_kernel i arg1 harg1 arg2 harg2 arg3 harg3) K := by
  simp only [cc1__normalize_kernel_eq_skeleton]; unfold cc1__normalize_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    rw [View.read_writes_eq_canon _ _ _ (View.cover_of_tiled _ S1280x512.size (by rfl)),
      View.canon_unit_zero hz2, View.readAt_eq_ld, View.ld_unit_zero (S := S1280x512) hz2]
  · iexists _; isplitr
    swap; · iexact H2
    ipureintro
    rw [View.read_writes_eq_canon _ _ _ (View.cover_of_tiled _ S1280x1.size (by rfl)),
      View.canon_unit_zero hz2, View.readAt_eq_ld, View.ld_unit_zero (S := S1280x512) hz2]

end Cert.KernelIdeal.Hand

end
-- ==== Proof.Spec.lean ====
/-
  The mathematics both programs compute, stated once over the extended reals with no program in sight.

  A row v of a matrix is scaled to length three: v · (3 · (max (Σ_k v_k², ε))^(-1/2)), ε the f32 word of 1e-12
  (the words 3, ε and 2 are kept as their patterns: the same word on both sides is never evaluated). The squared
  distance of two such rows a, b is (Σ a_k² + Σ b_k²) − 2 · Σ a_k b_k.
-/
import Idealize.ShloMosaic.PureOps.Ideal
import Idealize.ShloMosaic.Lib.ValueIdx

noncomputable section

open scoped BigOperators

namespace Cert.Spec

open Idealize.ShloMosaic Idealize.ShloMosaic.ValueIdx

/-- The words of 3.0, of the guard ε (the f32 nearest 1e-12) and of 2.0. -/
abbrev three : EReal := Ideal.ofBits .f32 0x40400000#32
abbrev eps : EReal := Ideal.ofBits .f32 0x2B8CBCCC#32
abbrev two : EReal := Ideal.ofBits .f32 0x40000000#32

/-- Row r's scale: three over the guarded length of the row. -/
def rowScale {n : Nat} (x : (⟨2, ![n, 512]⟩ : Shape).Idx → EReal) (r : Fin n) : EReal :=
  three * Ideal.rsqrt (max (∑ k : Fin 512, x (ix2 r k) * x (ix2 r k)) eps)

/-- Every row scaled to length three. -/
def normRows {n : Nat} (x : (⟨2, ![n, 512]⟩ : Shape).Idx → EReal) : (⟨2, ![n, 512]⟩ : Shape).Idx → EReal :=
  fun i => x i * rowScale x (i 0)

/-- The squared length of every scaled row, as a column. -/
def sqRows {n : Nat} (x : (⟨2, ![n, 512]⟩ : Shape).Idx → EReal) : (⟨2, ![n, 1]⟩ : Shape).Idx → EReal :=
  fun i => ∑ k : Fin 512, normRows x (ix2 (i 0) k) * normRows x (ix2 (i 0) k)

/-- A column laid out as a row. -/
def asRow {n : Nat} (y : (⟨2, ![n, 1]⟩ : Shape).Idx → EReal) : (⟨2, ![1, n]⟩ : Shape).Idx → EReal :=
  fun i => y (ix2 (i 1) 0)

/-- Pairwise squared distances from the rows' squared lengths and their inner products. -/
def dist (xn : (⟨2, ![4096, 512]⟩ : Shape).Idx → EReal) (xsq : (⟨2, ![4096, 1]⟩ : Shape).Idx → EReal)
    (pn : (⟨2, ![10000, 512]⟩ : Shape).Idx → EReal) (psqT : (⟨2, ![1, 10000]⟩ : Shape).Idx → EReal) :
    (⟨2, ![4096, 10000]⟩ : Shape).Idx → EReal :=
  fun i => (xsq (ix2 (i 0) 0) + psqT (ix2 0 (i 1))) - two * ∑ k : Fin 512, xn (ix2 (i 0) k) * pn (ix2 (i 1) k)

/-- The whole result as one function of the two argument matrices. -/
def result (x : (⟨2, ![4096, 512]⟩ : Shape).Idx → EReal) (p : (⟨2, ![10000, 512]⟩ : Shape).Idx → EReal) :
    (⟨2, ![4096, 10000]⟩ : Shape).Idx → EReal :=
  dist (normRows x) (sqRows x) (normRows p) (asRow (sqRows p))

end Cert.Spec

end
-- ==== Proof.KI.Val1.lean ====
/-
  The normalising kernels' arithmetic at one block of rows, at the ideal values: from a block of rows of a matrix
  (past the array's end: anything) the first stored value is, on the rows inside the array, the block of the matrix's
  rows scaled to length three, and the second the block of those rows' squared lengths. Each stored row depends on
  its own row of the load alone: the sums run along the row.
-/
import proofs.«139165_j18451179503909_1_alg».proof.Proof.Gen.KernelIdeal.Skeleton
import proofs.«139165_j18451179503909_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open scoped BigOperators

namespace Val1

/-! ## Layout operations of the two kernels, read at an index given by coordinates -/

section Layout
variable {α : Type}

/-- A column broadcast along the rows' 512 entries reads, at (r, q), the column at r. -/
theorem bcast_col {n : Nat} (v : (⟨2, ![n, 1]⟩ : Shape).Idx → α) (h : (⟨2, ![n, 1]⟩ : Shape).Broadcasts ⟨2, ![n, 512]⟩)
    (r : Fin n) (q : Fin 512) : broadcastTo ⟨2, ![n, 512]⟩ v h (ix2 r q) = v (ix2 r (0 : Fin 1)) := by
  refine broadcastTo_apply v h (ix2 r q) (ix2 r (0 : Fin 1)) fun ax => ?_
  match ax with
  | ⟨0, _⟩ =>
    show r.val = if n = 1 then 0 else r.val
    split
    · have := r.isLt; omega
    · rfl
  | ⟨1, _⟩ => rfl

/-- A vector laid out as a column reads, at (r, 0), the vector at r. -/
theorem cast_col {n : Nat} (v : (⟨1, ![n]⟩ : Shape).Idx → α) (h : (⟨1, ![n]⟩ : Shape).ShapeCasts ⟨2, ![n, 1]⟩)
    (r : Fin n) (u : Fin 1) : shapeCast ⟨2, ![n, 1]⟩ v h (ix2 r u) = v (ix1 r) :=
  shapeCast_apply v h _ _ (by
    have hu : u.val = 0 := by omega
    rw [Shape.rowMajor_val_two, Shape.rowMajor_val_one]
    show r.val = r.val * 1 + u.val
    omega)

/-- The sum along axis 1 of a matrix with rows of 512, at r, is the sum over row r. -/
theorem row_sum {n : Nat} (v : FVec Ideal ⟨2, ![n, 512]⟩ .f32) (acc : BitVec 32)
    (h : Shape.Reduces ⟨2, ![n, 512]⟩ [1] ⟨1, ![n]⟩) (hφ : FKind.Formats .f32) (hacc : acc = FKind.add.neutral .f32 hφ) (r : Fin n) :
    multiReduction .add [1] ⟨1, ![n]⟩ v acc h hφ hacc (ix1 r) = ∑ k : Fin 512, v (ix2 r k) := by
  rw [Ideal.multiReduction_add_single]
  refine Finset.sum_congr rfl fun k _ => congrArg v ?_
  funext a
  match a with
  | ⟨0, _⟩ => exact Fin.ext rfl
  | ⟨1, _⟩ => exact Fin.ext rfl

end Layout

/-! ## The payloads at an entry: a row scaled by three over its guarded length, and the scaled row's squared length -/

theorem pay1_at0 (x : S512x512.Idx → EReal) (r : Fin 512) (q : Fin 512) :
    k0_pay1 (F := Ideal) x (ix2 r q)
      = x (ix2 r q) * (Cert.Spec.three * Ideal.rsqrt (max (∑ k : Fin 512, x (ix2 r k) * x (ix2 r k)) Cert.Spec.eps)) := by
  unfold k0_pay1
  simp only [mulf_apply, bcast_col]
  show x (ix2 r q) * (Cert.Spec.three * Ideal.rsqrt (max (shapeCast S512x1 _ _ (ix2 r (0 : Fin 1))) Cert.Spec.eps)) = _
  rw [cast_col]
  refine congrArg (fun s => x (ix2 r q) * (Cert.Spec.three * Ideal.rsqrt (max s Cert.Spec.eps))) ?_
  exact row_sum (mulf x x) _ _ _ _ r

theorem pay3_at0 (x : S512x512.Idx → EReal) (r : Fin 512) (u : Fin 1) :
    k0_pay3 (F := Ideal) x (ix2 r u) = ∑ k : Fin 512, k0_pay1 (F := Ideal) x (ix2 r k) * k0_pay1 (F := Ideal) x (ix2 r k) := by
  unfold k0_pay3
  show shapeCast S512x1 _ _ (ix2 r u) = _
  rw [cast_col]
  exact row_sum (mulf (k0_pay1 (F := Ideal) x) (k0_pay1 (F := Ideal) x)) _ _ _ _ r

theorem pay1_at1 (x : S1280x512.Idx → EReal) (r : Fin 1280) (q : Fin 512) :
    k1_pay1 (F := Ideal) x (ix2 r q)
      = x (ix2 r q) * (Cert.Spec.three * Ideal.rsqrt (max (∑ k : Fin 512, x (ix2 r k) * x (ix2 r k)) Cert.Spec.eps)) := by
  unfold k1_pay1
  simp only [mulf_apply, bcast_col]
  show x (ix2 r q) * (Cert.Spec.three * Ideal.rsqrt (max (shapeCast S1280x1 _ _ (ix2 r (0 : Fin 1))) Cert.Spec.eps)) = _
  rw [cast_col]
  refine congrArg (fun s => x (ix2 r q) * (Cert.Spec.three * Ideal.rsqrt (max s Cert.Spec.eps))) ?_
  exact row_sum (mulf x x) _ _ _ _ r

theorem pay3_at1 (x : S1280x512.Idx → EReal) (r : Fin 1280) (u : Fin 1) :
    k1_pay3 (F := Ideal) x (ix2 r u) = ∑ k : Fin 512, k1_pay1 (F := Ideal) x (ix2 r k) * k1_pay1 (F := Ideal) x (ix2 r k) := by
  unfold k1_pay3
  show shapeCast S1280x1 _ _ (ix2 r u) = _
  rw [cast_col]
  exact row_sum (mulf (k1_pay1 (F := Ideal) x) (k1_pay1 (F := Ideal) x)) _ _ _ _ r

/-! ## A block of the first call, row by row -/

/-- Block t of each window starts at row 512·t, column 0. -/
theorem facts0 : ∀ t : Fin grid0.N,
    (win0_0.index t 0 = t.val ∧ win0_0.index t 1 = 0) ∧ (win0_1.index t 0 = t.val ∧ win0_1.index t 1 = 0)
    ∧ (win0_2.index t 0 = t.val ∧ win0_2.index t 1 = 0) := by decide +kernel

/-- Row r of block t of the input is row 512·t + r of the matrix. -/
theorem blk_row0_0 (X : S4096x512.Idx → EReal) (t : Fin cfg0.N) (r : Fin 512) (R : Fin 4096)
    (hR : R.val = t.val * 512 + r.val) (k : Fin 512) :
    (win0_0.blk t).view.read (Elt Ideal) X (ix2 r k : S512x512.Idx) = X (ix2 R k) := by
  rw [View.read_apply]
  refine (cast_eq _ _).trans (congrArg X (funext fun a => ?_))
  match a with
  | ⟨0, _⟩ =>
    refine Fin.ext ?_
    show win0_0.index t 0 * 512 + 1 * r.val = R.val
    rw [(facts0 t).1.1, hR]; omega
  | ⟨1, _⟩ =>
    refine Fin.ext ?_
    show win0_0.index t 1 * 512 + 1 * k.val = k.val
    rw [(facts0 t).1.2]; omega

/-- The same of the first result's block, -/
theorem blk_row0_1 (Y : S4096x512.Idx → EReal) (t : Fin cfg0.N) (r : Fin 512) (R : Fin 4096)
    (hR : R.val = t.val * 512 + r.val) (k : Fin 512) :
    (win0_1.blk t).view.read (Elt Ideal) Y (ix2 r k : S512x512.Idx) = Y (ix2 R k) := by
  rw [View.read_apply]
  refine (cast_eq _ _).trans (congrArg Y (funext fun a => ?_))
  match a with
  | ⟨0, _⟩ =>
    refine Fin.ext ?_
    show win0_1.index t 0 * 512 + 1 * r.val = R.val
    rw [(facts0 t).2.1.1, hR]; omega
  | ⟨1, _⟩ =>
    refine Fin.ext ?_
    show win0_1.index t 1 * 512 + 1 * k.val = k.val
    rw [(facts0 t).2.1.2]; omega

/-- and of the second's, a column. -/
theorem blk_row0_2 (Y : S4096x1.Idx → EReal) (t : Fin cfg0.N) (r : Fin 512) (R : Fin 4096)
    (hR : R.val = t.val * 512 + r.val) (u : Fin 1) :
    (win0_2.blk t).view.read (Elt Ideal) Y (ix2 r u : S512x1.Idx) = Y (ix2 R u) := by
  rw [View.read_apply]
  refine (cast_eq _ _).trans (congrArg Y (funext fun a => ?_))
  match a with
  | ⟨0, _⟩ =>
    refine Fin.ext ?_
    show win0_2.index t 0 * 512 + 1 * r.val = R.val
    rw [(facts0 t).2.2.1, hR]; omega
  | ⟨1, _⟩ =>
    refine Fin.ext ?_
    show win0_2.index t 1 * 1 + 1 * u.val = u.val
    rw [(facts0 t).2.2.2]; omega

/-- The scaled entry (r, k) of block t is the matrix's scaled entry (512·t + r, k): the sums run over one row. -/
theorem norm_blk_row0 (X : S4096x512.Idx → EReal) (t : Fin cfg0.N) (r : Fin 512) (R : Fin 4096)
    (hR : R.val = t.val * 512 + r.val) (k : Fin 512) :
    k0_pay1 (F := Ideal) ((win0_0.blk t).view.read (Elt Ideal) X) (ix2 r k) = Cert.Spec.normRows X (ix2 R k) := by
  rw [pay1_at0]
  simp only [blk_row0_0 X t r R hR]
  rfl

/-! ## A block of the second call, row by row, on the rows inside the array -/

/-- Block t of each window starts at row 1280·t, column 0; the three windows are cut alike on the rows and not at all
    on the columns. -/
theorem facts1 : ∀ t : Fin grid1.N,
    (win1_0.index t 0 = t.val ∧ win1_0.index t 1 = 0) ∧ (win1_1.index t 0 = t.val ∧ win1_1.index t 1 = 0)
    ∧ (win1_2.index t 0 = t.val ∧ win1_2.index t 1 = 0)
    ∧ win1_0.xsize (grid1.coords t) 1 = 512 ∧ win1_1.xsize (grid1.coords t) 1 = 512 ∧ win1_2.xsize (grid1.coords t) 1 = 1
    ∧ win1_1.xsize (grid1.coords t) 0 = win1_0.xsize (grid1.coords t) 0
    ∧ win1_2.xsize (grid1.coords t) 0 = win1_0.xsize (grid1.coords t) 0 := by decide +kernel

/-- A row r of the staged block that lies inside the array holds row 1280·t + r of the matrix, whatever filled the
    buffer before. -/
theorem fill_row1 (X : S10000x512.Idx → EReal) (t : Fin cfg1.N) (d : S1280x512.Idx → EReal) (r : Fin 1280) (R : Fin 10000)
    (hr : r.val < win1_0.xsize (grid1.coords t) 0) (hR : R.val = t.val * 1280 + r.val) (k : Fin 512) :
    win1_0.fill (grid1.coords t) d ((win1_0.blk t).view.read (Elt Ideal) X) (ix2 r k) = X (ix2 R k) := by
  have hm : win1_0.moved (grid1.coords t) (ix2 r k) = true :=
    (win1_0.moved_iff _ _).mpr fun a => match a with
      | ⟨0, _⟩ => hr
      | ⟨1, _⟩ => lt_of_lt_of_eq k.isLt (facts1 t).2.2.2.1.symm
  unfold Pipeline.Window.fill
  rw [dif_pos hm, View.read_apply]
  refine (cast_eq _ _).trans (congrArg X (funext fun a => ?_))
  match a with
  | ⟨0, _⟩ =>
    refine Fin.ext ?_
    show win1_0.index t 0 * 1280 + 1 * r.val = R.val
    rw [(facts1 t).1.1, hR]; omega
  | ⟨1, _⟩ =>
    refine Fin.ext ?_
    show win1_0.index t 1 * 512 + 1 * k.val = k.val
    rw [(facts1 t).1.2]; omega

/-- The scaled entry (r, k) of such a row is the matrix's scaled entry (1280·t + r, k): the sums run over one row. -/
theorem norm_fill_row1 (X : S10000x512.Idx → EReal) (t : Fin cfg1.N) (d : S1280x512.Idx → EReal) (r : Fin 1280) (R : Fin 10000)
    (hr : r.val < win1_0.xsize (grid1.coords t) 0) (hR : R.val = t.val * 1280 + r.val) (k : Fin 512) :
    k1_pay1 (F := Ideal) (win1_0.fill (grid1.coords t) d ((win1_0.blk t).view.read (Elt Ideal) X)) (ix2 r k)
      = Cert.Spec.normRows X (ix2 R k) := by
  rw [pay1_at1]
  simp only [fill_row1 X t d r R hr hR]
  rfl

end Val1

open Val1

/-! ## The first call: 512 rows a block, every block inside the 4096-row array -/

theorem pay2_blk0 (X : S4096x512.Idx → EReal) (t : Fin cfg0.N) :
    k0_pay2 (F := Ideal) ((win0_0.blk t).view.read (Elt Ideal) X) = (win0_1.blk t).view.read (Elt Ideal) (Cert.Spec.normRows X) := by
  refine funext fun (j : S512x512.Idx) => ?_
  obtain ⟨p, q, rfl⟩ : ∃ (p : Fin 512) (q : Fin 512), j = ix2 p q := ⟨j 0, j 1, eq_ix2 j⟩
  have ht : t.val < 8 := t.isLt
  have hR : ((⟨t.val * 512 + p.val, by omega⟩ : Fin 4096) : Nat) = t.val * 512 + p.val := rfl
  rw [blk_row0_1 _ t p _ hR q]
  exact norm_blk_row0 X t p _ hR q

theorem pay3_blk0 (X : S4096x512.Idx → EReal) (t : Fin cfg0.N) :
    k0_pay3 (F := Ideal) ((win0_0.blk t).view.read (Elt Ideal) X) = (win0_2.blk t).view.read (Elt Ideal) (Cert.Spec.sqRows X) := by
  refine funext fun (j : S512x1.Idx) => ?_
  obtain ⟨p, u, rfl⟩ : ∃ (p : Fin 512) (u : Fin 1), j = ix2 p u := ⟨j 0, j 1, eq_ix2 j⟩
  have ht : t.val < 8 := t.isLt
  have hR : ((⟨t.val * 512 + p.val, by omega⟩ : Fin 4096) : Nat) = t.val * 512 + p.val := rfl
  rw [blk_row0_2 _ t p _ hR u, pay3_at0]
  exact Finset.sum_congr rfl fun k _ => by rw [norm_blk_row0 X t p _ hR k]

/-! ## The second call: 1280 rows a block, the last block 240 rows past the 10000-row array -/

theorem pay2_cut (X : S10000x512.Idx → EReal) (t : Fin cfg1.N) (d : S1280x512.Idx → EReal) :
    win1_1.cut (grid1.coords t) (k1_pay2 (F := Ideal) (win1_0.fill (grid1.coords t) d ((win1_0.blk t).view.read (Elt Ideal) X)))
      = (win1_1.blk t).view.read (Elt Ideal) (Cert.Spec.normRows X) := by
  funext j
  have h0 : (j 0).val < win1_0.xsize (grid1.coords t) 0 := lt_of_lt_of_eq (j 0).isLt (facts1 t).2.2.2.2.2.2.1
  have h1 : (j 1).val < 512 := lt_of_lt_of_eq (j 1).isLt (facts1 t).2.2.2.2.1
  have hR : (((win1_1.blk t).view.emb j 0 : Fin 10000) : Nat) = t.val * 1280 + (j 0).val := by
    show win1_1.index t 0 * 1280 + 1 * (j 0).val = _
    rw [(facts1 t).2.1.1]; omega
  have hr : (j 0).val < 1280 := lt_of_lt_of_le h0 (win1_0.xsize_le _ 0)
  have hx : win1_1.xinj (grid1.coords t) j = ix2 (⟨(j 0).val, hr⟩ : Fin 1280) (⟨(j 1).val, h1⟩ : Fin 512) := by
    funext a
    match a with
    | ⟨0, _⟩ => rfl
    | ⟨1, _⟩ => rfl
  show k1_pay1 (F := Ideal) _ (win1_1.xinj (grid1.coords t) j) = _
  rw [hx]
  refine (norm_fill_row1 X t d ⟨(j 0).val, hr⟩ ((win1_1.blk t).view.emb j 0) h0 hR ⟨(j 1).val, h1⟩).trans ?_
  rw [View.read_apply]
  refine (congrArg (Cert.Spec.normRows X) (funext fun a => ?_)).trans (cast_eq _ _).symm
  match a with
  | ⟨0, _⟩ => rfl
  | ⟨1, _⟩ =>
    refine Fin.ext ?_
    show (j 1).val = win1_1.index t 1 * 512 + 1 * (j 1).val
    rw [(facts1 t).2.1.2]; omega

theorem pay3_cut (X : S10000x512.Idx → EReal) (t : Fin cfg1.N) (d : S1280x512.Idx → EReal) :
    win1_2.cut (grid1.coords t) (k1_pay3 (F := Ideal) (win1_0.fill (grid1.coords t) d ((win1_0.blk t).view.read (Elt Ideal) X)))
      = (win1_2.blk t).view.read (Elt Ideal) (Cert.Spec.sqRows X) := by
  funext j
  have h0 : (j 0).val < win1_0.xsize (grid1.coords t) 0 := lt_of_lt_of_eq (j 0).isLt (facts1 t).2.2.2.2.2.2.2
  have h1 : (j 1).val < 1 := lt_of_lt_of_eq (j 1).isLt (facts1 t).2.2.2.2.2.1
  have hR : (((win1_2.blk t).view.emb j 0 : Fin 10000) : Nat) = t.val * 1280 + (j 0).val := by
    show win1_2.index t 0 * 1280 + 1 * (j 0).val = _
    rw [(facts1 t).2.2.1.1]; omega
  have hr : (j 0).val < 1280 := lt_of_lt_of_le h0 (win1_0.xsize_le _ 0)
  have hx : win1_2.xinj (grid1.coords t) j = ix2 (⟨(j 0).val, hr⟩ : Fin 1280) (⟨(j 1).val, h1⟩ : Fin 1) := by
    funext a
    match a with
    | ⟨0, _⟩ => rfl
    | ⟨1, _⟩ => rfl
  show k1_pay3 (F := Ideal) _ (win1_2.xinj (grid1.coords t) j) = _
  rw [hx, pay3_at1, View.read_apply]
  refine Eq.trans ?_ (cast_eq _ _).symm
  exact Finset.sum_congr rfl fun k _ => by rw [norm_fill_row1 X t d ⟨(j 0).val, hr⟩ ((win1_2.blk t).view.emb j 0) h0 hR k]

end Cert.KernelIdeal.Hand

end
-- ==== Proof.KI.Region1.lean ====
/-
  The second pallas_call (1280 rows a point, eight points; the last block overhangs the 10000-row array by 240 rows)
  at the ideal values, at any contents V of the core's buffers when the call is entered. Past the array's end a
  staging buffer holds what nothing names; what each buffer holds on the rows INSIDE the array after the body is:
  the input its block of rows, the first output the block of the matrix's scaled rows, the second the block of
  their squared lengths. Each is filled out past the array's end with a zero nothing reads.
-/
import proofs.«139165_j18451179503909_1_alg».proof.Proof.Gen.KernelIdeal.Launch
import proofs.«139165_j18451179503909_1_alg».proof.Proof.Gen.KernelIdeal.Skeleton
import proofs.«139165_j18451179503909_1_alg».proof.Proof.Gen.KernelIdeal.Points
import proofs.«139165_j18451179503909_1_alg».proof.Proof.KI.Body1
import proofs.«139165_j18451179503909_1_alg».proof.Proof.KI.Val1
import Idealize.ShloMosaic.PureOps.Ideal.Laws
import Idealize.ShloMosaic.Lib.ValueIdx
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Idealize.ShloMosaic.ValueIdx

variable (V : (c : Dev nD) → (b : Ref sig .tc) → Buf (Elt Ideal) ((c : Thread nD τ).loc b))

/-- The matrix the call normalises, as it finds it; its scaled rows; their squared lengths. -/
abbrev P1 (c : Dev nD) : S10000x512.Idx → EReal := V c main_arg1
abbrev G1a (c : Dev nD) : S10000x512.Idx → EReal := Cert.Spec.normRows (P1 V c)
abbrev G1b (c : Dev nD) : S10000x1.Idx → EReal := Cert.Spec.sqRows (P1 V c)

/-- The input's block at point t (its rows inside the array). -/
def iblk1 (c : Dev nD) (t : Fin cfg1.N) : (win1_0.xblock (grid1.coords t)).Idx → EReal :=
  (win1_0.blk t).view.read (Elt Ideal) (V c main_arg1)

/-- The proof data of the second pipeline on core c. -/
def dat1 (c : Dev nD) : Dat τ (Elt Ideal) Unit ℕ (UR sig nD τ) ℕ cfg1 c where
  A w := V c (Pipeline.arrRef spec1 w)
  after w t := match w with
    | ⟨0, _⟩ => win1_0.fill (grid1.coords t) (fun _ => (0 : EReal)) (iblk1 V c t)
    | ⟨1, _⟩ => win1_1.fill (grid1.coords t) (fun _ => (0 : EReal)) ((win1_1.blk t).view.read (Elt Ideal) (G1a V c))
    | ⟨2, _⟩ => win1_2.fill (grid1.coords t) (fun _ => (0 : EReal)) ((win1_2.blk t).view.read (Elt Ideal) (G1b V c))
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) :
    (dat1 V c).after 0 t = win1_0.fill (grid1.coords t) (fun _ => (0 : EReal)) (iblk1 V c t) := by dsimp only [dat1]
theorem after1_1 (c : Dev nD) (t : Fin cfg1.N) :
    (dat1 V c).after 1 t = win1_1.fill (grid1.coords t) (fun _ => (0 : EReal)) ((win1_1.blk t).view.read (Elt Ideal) (G1a V c)) := by
  dsimp only [dat1]
theorem after1_2 (c : Dev nD) (t : Fin cfg1.N) :
    (dat1 V c).after 2 t = win1_2.fill (grid1.coords t) (fun _ => (0 : EReal)) ((win1_2.blk t).view.read (Elt Ideal) (G1b V c)) := by
  dsimp only [dat1]

/-- What each write-back moves: the block of the closed form. -/
theorem flushed1_1 (c : Dev nD) (t : Fin cfg1.N) : (dat1 V c).flushed 1 t = (win1_1.blk t).view.read (Elt Ideal) (G1a V c) := by
  show (cfg1.win 1).cut (grid1.coords t) ((dat1 V c).after 1 t) = _
  rw [after1_1]
  exact win1_1.cut_fill _ _ _
theorem flushed1_2 (c : Dev nD) (t : Fin cfg1.N) : (dat1 V c).flushed 2 t = (win1_2.blk t).view.read (Elt Ideal) (G1b V c) := by
  show (cfg1.win 2).cut (grid1.coords t) ((dat1 V c).after 2 t) = _
  rw [after1_2]
  exact win1_2.cut_fill _ _ _

/-- The input's staging buffer holds, when the body runs, its block on the rows inside the array and anything past
    the array's end: it is fetched at every point. -/
theorem before1_0 (c : Dev nD) (t : Fin cfg1.N) (d) :
    (dat1 V c).before 0 t d = win1_0.fill (grid1.coords t) d (iblk1 V c t) := by
  rw [(dat1 V c).before_fetched 0 t (fetch1_0 t)]
  unfold Dat.fetched Dat.blockOf iblk1
  rw [A_eq1]

/-- The outputs' staging buffers hold anything: each is written back at every point. -/
theorem before1_1 (c : Dev nD) (t : Fin cfg1.N) (d) : (dat1 V c).before 1 t d = d := by
  refine (dat1 V c).before_out_reset 1 rfl t ?_ d
  by_cases h : t.val = 0
  · exact .inl h
  · exact .inr ⟨h, flush1_1 _⟩
theorem before1_2 (c : Dev nD) (t : Fin cfg1.N) (d) : (dat1 V c).before 2 t d = d := by
  refine (dat1 V c).before_out_reset 2 rfl t ?_ d
  by_cases h : t.val = 0
  · exact .inl h
  · exact .inr ⟨h, flush1_2 _⟩

/-- What each buffer holds after the body agrees, on the rows inside the array, with what the proof data names:
    filling the former with the latter's rows inside the array changes nothing. -/
theorem keep1_0 (c : Dev nD) (t : Fin cfg1.N) (d0 : S1280x512.Idx → EReal) :
    (win1 0).fill (grid1.coords t) (win1_0.fill (grid1.coords t) d0 (iblk1 V c t)) ((win1 0).cut (grid1.coords t) ((dat1 V c).after 0 t))
      = win1_0.fill (grid1.coords t) d0 (iblk1 V c t) := by
  refine (win1 0).fill_congr_cut (grid1.coords t) ?_
  rw [after1_0]
  exact (win1_0.cut_fill _ _ _).trans (win1_0.cut_fill _ _ _).symm
theorem keep1_1 (c : Dev nD) (t : Fin cfg1.N) (d0 : S1280x512.Idx → EReal) :
    (win1 1).fill (grid1.coords t) (k1_pay2 (F := Ideal) (win1_0.fill (grid1.coords t) d0 (iblk1 V c t))) ((win1 1).cut (grid1.coords t) ((dat1 V c).after 1 t))
      = k1_pay2 (F := Ideal) (win1_0.fill (grid1.coords t) d0 (iblk1 V c t)) := by
  refine (win1 1).fill_congr_cut (grid1.coords t) ?_
  exact (pay2_cut (V c main_arg1) t d0).trans (flushed1_1 V c t).symm
theorem keep1_2 (c : Dev nD) (t : Fin cfg1.N) (d0 : S1280x512.Idx → EReal) :
    (win1 2).fill (grid1.coords t) (k1_pay3 (F := Ideal) (win1_0.fill (grid1.coords t) d0 (iblk1 V c t))) ((win1 2).cut (grid1.coords t) ((dat1 V c).after 2 t))
      = k1_pay3 (F := Ideal) (win1_0.fill (grid1.coords t) d0 (iblk1 V c t)) := by
  refine (win1 2).fill_congr_cut (grid1.coords t) ?_
  exact (pay3_cut (V c main_arg1) t d0).trans (flushed1_2 V c t).symm

/-- The pipeline rule's body obligation, each buffer stated on the rows inside the array. -/
theorem body_obligation1 (c : Dev nD) : BodyObligationLoose (dat1 V c) (defs₀ (F := Ideal)) Variants.none () Set.univ := fun t => by
  rw [bigSep_W1, bigSep_W1]
  simp only
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩⟩
  rw [before1_0 V c t d0, before1_1 V c t d1, before1_2 V c t d2]
  iapply (sound_kernel1 (F := Ideal) c Set.univ (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_0.fill (grid1.coords t) d0 (iblk1 V c t)) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  have e0 := keep1_0 V c t d0
  have e1 := keep1_1 V c t d0
  have e2 := keep1_2 V c t d0
  isplitl [H0]
  · iexists (win1_0.fill (grid1.coords t) d0 (iblk1 V c t))
    rw [e0]; iexact H0
  isplitl [H1]
  · iexists (k1_pay2 (F := Ideal) (win1_0.fill (grid1.coords t) d0 (iblk1 V c t)))
    rw [e1]; iexact H1
  · iexists (k1_pay3 (F := Ideal) (win1_0.fill (grid1.coords t) d0 (iblk1 V c t)))
    rw [e2]; iexact H2

end Cert.KernelIdeal.Hand

end
-- ==== Proof.KI.Body2.lean ====
/-
  The distance kernel's body, run once on whole staging buffers: from the four input buffers at contents x0 (512
  scaled rows), x1 (their squared lengths, a column), x2 (1280 scaled rows), x3 (their squared lengths, a row) and
  the output buffer at anything, it ends with the inputs as they were and the output at the one stored value, a
  function of the four loads.
-/
import proofs.«139165_j18451179503909_1_alg».proof.Proof.Gen.KernelIdeal.Launch
import proofs.«139165_j18451179503909_1_alg».proof.Proof.Gen.KernelIdeal.Skeleton
import proofs.«139165_j18451179503909_1_alg».proof.Proof.Gen.KernelIdeal.Points
import proofs.«139165_j18451179503909_1_alg».proof.Proof.KI.Body0
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
theorem sound_kernel2 (c : Dev nD) (E : Set ℕ) (i : grid2.Coords)
    (arg2 : Memref sig .tc .vmem S512x512 .bf16) (harg2 : arg2.IsWhole) (arg3 : Memref sig .tc .vmem S512x1 .f32) (harg3 : arg3.IsWhole)
    (arg4 : Memref sig .tc .vmem S1280x512 .bf16) (harg4 : arg4.IsWhole) (arg5 : Memref sig .tc .vmem S1x1280 .f32) (harg5 : arg5.IsWhole)
    (arg6 : Memref sig .tc .vmem S512x1280 .f32) (harg6 : arg6.IsWhole)
    (x0 : Vec F S512x512 .bf16) (x1 : Vec F S512x1 .f32) (x2 : Vec F S1280x512 .bf16) (x3 : Vec F S1x1280 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
              ∗ owns (c : Thread nD τ) arg5 fullShare x3 ∗ owns (c : Thread nD τ) arg6 fullShare (k2_pay1 x0 x2 x1 x3)) -∗ K ⟨⟩))
      ⊢ wp frame (wpE (defs₀ (F := F)) Variants.none c none) E (cc2__dist_kernel i arg2 harg2 arg3 harg3 arg4 harg4 arg5 harg5 arg6 harg6) K := by
  simp only [cc2__dist_kernel_eq_skeleton]; unfold cc2__dist_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  · iexists _; isplitr
    swap; · iexact H4
    ipureintro
    rw [View.read_writes_eq_canon _ _ _ (View.cover_of_tiled _ S512x1280.size (by rfl)),
      View.canon_unit_zero hz2]
    simp only [View.readAt_eq_ld, View.ld_unit_zero (S := S512x512) hz2, View.ld_unit_zero (S := S1280x512) hz2,
      View.ld_unit_zero (S := S512x1) hz2, View.ld_unit_zero (S := S1x1280) hz2]

end Cert.KernelIdeal.Hand

end
-- ==== Proof.KI.Val2.lean ====
/-
  The distance kernel's arithmetic at one tile, at the ideal values: from the tile's rows of the scaled left matrix,
  its rows of the scaled right matrix (past the array's end: anything), and the two squared-length vectors, the stored
  tile is, on its part inside the distance matrix, that part of (‖a‖² + ‖b‖²) − 2·⟨a, b⟩ computed from the whole arrays.
-/
import proofs.«139165_j18451179503909_1_alg».proof.Proof.Gen.KernelIdeal.Skeleton
import proofs.«139165_j18451179503909_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open scoped BigOperators

namespace Val2

/-! ## The contraction's operand indices -/

theorem lhs_dist_0 (i : S512x1280.Idx) (q : dot_S512x512_S1280x512_S512x1280_1_1_0_0_n_n.contr.Idx) :
    (dot_S512x512_S1280x512_S512x1280_1_1_0_0_n_n.lhsIdx i q 0).val = (i 0).val := by
  unfold DotDims.lhsIdx
  rw [dif_neg (show ¬(0 : Fin S512x512.rank) ∈ dot_S512x512_S1280x512_S512x1280_1_1_0_0_n_n.lhsBatch by decide), dif_pos (show (0 : Fin S512x512.rank) ∈ dot_S512x512_S1280x512_S512x1280_1_1_0_0_n_n.lhsNonContracting by decide)]
  rfl
theorem lhs_dist_1 (i : S512x1280.Idx) (q : dot_S512x512_S1280x512_S512x1280_1_1_0_0_n_n.contr.Idx) :
    (dot_S512x512_S1280x512_S512x1280_1_1_0_0_n_n.lhsIdx i q 1).val = (q ⟨0, by decide⟩).val :=
  dot_S512x512_S1280x512_S512x1280_1_1_0_0_n_n.lhsIdx_val_of_single rfl i q
theorem rhs_dist_0 (i : S512x1280.Idx) (q : dot_S512x512_S1280x512_S512x1280_1_1_0_0_n_n.contr.Idx) :
    (dot_S512x512_S1280x512_S512x1280_1_1_0_0_n_n.rhsIdx i q 0).val = (i 1).val := by
  unfold DotDims.rhsIdx
  rw [dif_neg (show ¬(0 : Fin S1280x512.rank) ∈ dot_S512x512_S1280x512_S512x1280_1_1_0_0_n_n.rhsBatch by decide), dif_pos (show (0 : Fin S1280x512.rank) ∈ dot_S512x512_S1280x512_S512x1280_1_1_0_0_n_n.rhsNonContracting by decide)]
  rfl
theorem rhs_dist_1 (i : S512x1280.Idx) (q : dot_S512x512_S1280x512_S512x1280_1_1_0_0_n_n.contr.Idx) :
    (dot_S512x512_S1280x512_S512x1280_1_1_0_0_n_n.rhsIdx i q 1).val = (q ⟨0, by decide⟩).val :=
  dot_S512x512_S1280x512_S512x1280_1_1_0_0_n_n.rhsIdx_val_of_single rfl i q

/-- The product into the zero accumulator at (b, q): the inner product of row b of the left operand and row q of the right. -/
theorem matmul_dist_apply (y0 : S512x512.Idx → EReal) (y1 : S1280x512.Idx → EReal) (i : S512x1280.Idx) :
    FloatOps.matmul (F := Ideal) (φ₁ := .bf16) (φ₂ := .bf16) dot_S512x512_S1280x512_S512x1280_1_1_0_0_n_n none y0 y1 (constant S512x1280 .f32 0x00000000#32) i
      = ∑ k : Fin 512, y0 (ix2 (i 0) k) * y1 (ix2 (i 1) k) := by
  rw [Ideal.matmul_constant_zero_apply, ← Equiv.sum_comp (ValueIdx.contrEquiv1 dot_S512x512_S1280x512_S512x1280_1_1_0_0_n_n 512 rfl rfl).symm]
  refine Finset.sum_congr rfl fun k _ => ?_
  have hk := ValueIdx.contrEquiv1_symm_val dot_S512x512_S1280x512_S512x1280_1_1_0_0_n_n 512 rfl rfl k
  have el : dot_S512x512_S1280x512_S512x1280_1_1_0_0_n_n.lhsIdx i ((ValueIdx.contrEquiv1 dot_S512x512_S1280x512_S512x1280_1_1_0_0_n_n 512 rfl rfl).symm k) = ix2 (i 0) k := funext fun a => Fin.ext (by
    match a with
    | ⟨0, _⟩ => exact lhs_dist_0 _ _
    | ⟨1, _⟩ => exact (lhs_dist_1 _ _).trans hk)
  have er : dot_S512x512_S1280x512_S512x1280_1_1_0_0_n_n.rhsIdx i ((ValueIdx.contrEquiv1 dot_S512x512_S1280x512_S512x1280_1_1_0_0_n_n 512 rfl rfl).symm k) = ix2 (i 1) k := funext fun a => Fin.ext (by
    match a with
    | ⟨0, _⟩ => exact rhs_dist_0 _ _
    | ⟨1, _⟩ => exact (rhs_dist_1 _ _).trans hk)
  rw [el, er]
  rfl

/-- A column broadcast along the rows reads the column at the row. -/
theorem bcast_col_apply (v : S512x1.Idx → EReal) (b : Fin 512) (q : Fin 1280) :
    broadcastTo S512x1280 v Facts₀.broadcasts_S512x1_S512x1280 (ix2 b q) = v (ix2 b 0) := by
  refine broadcastTo_apply v _ (ix2 b q) (ix2 b 0) fun ax => ?_
  match ax with
  | ⟨0, _⟩ => rfl
  | ⟨1, _⟩ => rfl

/-- The tile's arithmetic at (b, q). -/
theorem pay1_apply (x0 : S512x512.Idx → EReal) (x2 : S1280x512.Idx → EReal) (x1 : S512x1.Idx → EReal) (x3 : S1x1280.Idx → EReal)
    (b : Fin 512) (q : Fin 1280) :
    k2_pay1 (F := Ideal) x0 x2 x1 x3 (ix2 b q)
      = (x1 (ix2 b 0) + x3 (ix2 0 q)) - Cert.Spec.two * ∑ k : Fin 512, x0 (ix2 b k) * x2 (ix2 q k) := by
  unfold k2_pay1
  simp only [shapeCast_self]
  rw [subf_apply, addf_apply, mulf_apply, broadcast_apply, bcast_col_apply, broadcastTo_1b_ab_apply]
  show _ - Cert.Spec.two * FloatOps.matmul (F := Ideal) (φ₁ := .bf16) (φ₂ := .bf16) dot_S512x512_S1280x512_S512x1280_1_1_0_0_n_n none x0 x2 (constant S512x1280 .f32 0x00000000#32) (ix2 b q) = _
  rw [matmul_dist_apply]

/-! ## The windows' block indices and cuts over the 64 tiles -/

theorem tile_facts : ∀ t : Fin grid2.N,
    (win2_0.index t 0 = win2_4.index t 0 ∧ win2_0.index t 1 = 0)
    ∧ (win2_1.index t 0 = win2_4.index t 0 ∧ win2_1.index t 1 = 0)
    ∧ (win2_2.index t 0 = win2_4.index t 1 ∧ win2_2.index t 1 = 0)
    ∧ (win2_3.index t 0 = 0 ∧ win2_3.index t 1 = win2_4.index t 1)
    ∧ (win2_2.xsize (grid2.coords t) 0 = win2_4.xsize (grid2.coords t) 1 ∧ win2_2.xsize (grid2.coords t) 1 = 512)
    ∧ (win2_3.xsize (grid2.coords t) 0 = 1 ∧ win2_3.xsize (grid2.coords t) 1 = win2_4.xsize (grid2.coords t) 1) := by
  decide +kernel

end Val2

open Val2

/-- On the part of the tile inside the distance matrix, the stored value is the distances' block. -/
theorem pay1_cut (X0 : S4096x512.Idx → EReal) (X1 : S4096x1.Idx → EReal) (X2 : S10000x512.Idx → EReal) (X3 : S1x10000.Idx → EReal)
    (t : Fin cfg2.N) (d2 : S1280x512.Idx → EReal) (d3 : S1x1280.Idx → EReal) :
    win2_4.cut (grid2.coords t) (k2_pay1 (F := Ideal) ((win2_0.blk t).view.read (Elt Ideal) X0)
        (win2_2.fill (grid2.coords t) d2 ((win2_2.blk t).view.read (Elt Ideal) X2))
        ((win2_1.blk t).view.read (Elt Ideal) X1)
        (win2_3.fill (grid2.coords t) d3 ((win2_3.blk t).view.read (Elt Ideal) X3)))
      = (win2_4.blk t).view.read (Elt Ideal) (Cert.Spec.dist X0 X1 X2 X3) := by
  funext j
  obtain ⟨⟨h00, h01⟩, ⟨h10, h11⟩, ⟨h20, h21⟩, ⟨h30, h31⟩, ⟨hx20, hx21⟩, ⟨hx30, hx31⟩⟩ := tile_facts t
  have hb : (j 0).val < 512 := Nat.lt_of_lt_of_le (j 0).isLt (win2_4.xsize_le (grid2.coords t) 0)
  have hq : (j 1).val < 1280 := Nat.lt_of_lt_of_le (j 1).isLt (win2_4.xsize_le (grid2.coords t) 1)
  have hj : win2_4.xinj (grid2.coords t) j = ix2 (⟨(j 0).val, hb⟩ : Fin 512) (⟨(j 1).val, hq⟩ : Fin 1280) := by
    funext a
    match a with
    | ⟨0, _⟩ => rfl
    | ⟨1, _⟩ => rfl
  -- the four operands at the tile's coordinate, read off the whole arrays
  have e1 : (win2_1.blk t).view.read (Elt Ideal) X1 (ix2 (⟨(j 0).val, hb⟩ : Fin 512) 0)
      = X1 (ix2 ((win2_4.blk t).view.emb j 0) 0) := by
    show X1 ((win2_1.blk t).view.emb (ix2 (⟨(j 0).val, hb⟩ : Fin 512) 0)) = _
    refine congrArg X1 (Shape.idx_ext₂ ?_ ?_)
    · show win2_1.index t 0 * 512 + 1 * (j 0).val = win2_4.index t 0 * 512 + 1 * (j 0).val
      rw [h10]
    · show win2_1.index t 1 * 1 + 1 * 0 = 0
      rw [h11]
  have e0 : ∀ k : Fin 512, (win2_0.blk t).view.read (Elt Ideal) X0 (ix2 (⟨(j 0).val, hb⟩ : Fin 512) k)
      = X0 (ix2 ((win2_4.blk t).view.emb j 0) k) := fun k => by
    show X0 ((win2_0.blk t).view.emb (ix2 (⟨(j 0).val, hb⟩ : Fin 512) k)) = _
    refine congrArg X0 (Shape.idx_ext₂ ?_ ?_)
    · show win2_0.index t 0 * 512 + 1 * (j 0).val = win2_4.index t 0 * 512 + 1 * (j 0).val
      rw [h00]
    · show win2_0.index t 1 * 512 + 1 * k.val = k.val
      rw [h01]; omega
  have h3a : 0 < win2_3.xsize (grid2.coords t) 0 := by rw [hx30]; exact Nat.one_pos
  have h3b : (j 1).val < win2_3.xsize (grid2.coords t) 1 := by rw [hx31]; exact (j 1).isLt
  have e3 : win2_3.fill (grid2.coords t) d3 ((win2_3.blk t).view.read (Elt Ideal) X3) (ix2 0 (⟨(j 1).val, hq⟩ : Fin 1280))
      = X3 (ix2 0 ((win2_4.blk t).view.emb j 1)) := by
    let j3 : (win2_3.xblock (grid2.coords t)).Idx := fun a => match a with
      | ⟨0, _⟩ => ⟨0, h3a⟩
      | ⟨1, _⟩ => ⟨(j 1).val, h3b⟩
    have hj3 : (ix2 (0 : Fin 1) (⟨(j 1).val, hq⟩ : Fin 1280) : S1x1280.Idx) = win2_3.xinj (grid2.coords t) j3 := by
      funext a
      match a with
      | ⟨0, _⟩ => rfl
      | ⟨1, _⟩ => rfl
    refine (congrArg (win2_3.fill (grid2.coords t) d3 ((win2_3.blk t).view.read (Elt Ideal) X3)) hj3).trans
      ((win2_3.fill_xinj (grid2.coords t) d3 _ j3).trans ?_)
    show X3 ((win2_3.blk t).view.emb j3) = _
    refine congrArg X3 (Shape.idx_ext₂ ?_ ?_)
    · show win2_3.index t 0 * 1 + 1 * 0 = 0
      rw [h30]
    · show win2_3.index t 1 * 1280 + 1 * (j 1).val = win2_4.index t 1 * 1280 + 1 * (j 1).val
      rw [h31]
  have h2a : (j 1).val < win2_2.xsize (grid2.coords t) 0 := by rw [hx20]; exact (j 1).isLt
  have h2b : ∀ k : Fin 512, k.val < win2_2.xsize (grid2.coords t) 1 := fun k => by rw [hx21]; exact k.isLt
  have e2 : ∀ k : Fin 512, win2_2.fill (grid2.coords t) d2 ((win2_2.blk t).view.read (Elt Ideal) X2) (ix2 (⟨(j 1).val, hq⟩ : Fin 1280) k)
      = X2 (ix2 ((win2_4.blk t).view.emb j 1) k) := fun k => by
    let j2 : (win2_2.xblock (grid2.coords t)).Idx := fun a => match a with
      | ⟨0, _⟩ => ⟨(j 1).val, h2a⟩
      | ⟨1, _⟩ => ⟨k.val, h2b k⟩
    have hj2 : (ix2 (⟨(j 1).val, hq⟩ : Fin 1280) k : S1280x512.Idx) = win2_2.xinj (grid2.coords t) j2 := by
      funext a
      match a with
      | ⟨0, _⟩ => rfl
      | ⟨1, _⟩ => rfl
    refine (congrArg (win2_2.fill (grid2.coords t) d2 ((win2_2.blk t).view.read (Elt Ideal) X2)) hj2).trans
      ((win2_2.fill_xinj (grid2.coords t) d2 _ j2).trans ?_)
    show X2 ((win2_2.blk t).view.emb j2) = _
    refine congrArg X2 (Shape.idx_ext₂ ?_ ?_)
    · show win2_2.index t 0 * 1280 + 1 * (j 1).val = win2_4.index t 1 * 1280 + 1 * (j 1).val
      rw [h20]
    · show win2_2.index t 1 * 512 + 1 * k.val = k.val
      rw [h21]; omega
  show k2_pay1 (F := Ideal) _ _ _ _ (win2_4.xinj (grid2.coords t) j) = Cert.Spec.dist X0 X1 X2 X3 ((win2_4.blk t).view.emb j)
  rw [hj, pay1_apply, e1, e3, Finset.sum_congr rfl fun k _ => show _ = X0 (ix2 ((win2_4.blk t).view.emb j 0) k) * X2 (ix2 ((win2_4.blk t).view.emb j 1) k) by rw [e0 k, e2 k]]
  rfl

end Cert.KernelIdeal.Hand

end
-- ==== Proof.KI.Region2.lean ====
/-
  The third pallas_call (512 × 1280 tiles of the distance matrix on an 8 × 8 grid; the last column of tiles
  overhangs the 10000 columns by 240) at the ideal values, at any contents V of the core's buffers when the call is
  entered. On the part INSIDE the arrays each staging buffer holds, after the body: the four inputs their blocks, the
  output the block of the pairwise squared distances computed from the four input arrays.
-/
import proofs.«139165_j18451179503909_1_alg».proof.Proof.Gen.KernelIdeal.Launch
import proofs.«139165_j18451179503909_1_alg».proof.Proof.Gen.KernelIdeal.Skeleton
import proofs.«139165_j18451179503909_1_alg».proof.Proof.Gen.KernelIdeal.Points
import proofs.«139165_j18451179503909_1_alg».proof.Proof.KI.Body2
import proofs.«139165_j18451179503909_1_alg».proof.Proof.KI.Val2
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (V : (c : Dev nD) → (b : Ref sig .tc) → Buf (Elt Ideal) ((c : Thread nD τ).loc b))

/-- The four arrays the call reads, as it finds them, and the distances computed from them. -/
abbrev A20 (c : Dev nD) : S4096x512.Idx → EReal := V c main_v0_0
abbrev A21 (c : Dev nD) : S4096x1.Idx → EReal := V c main_v0_1
abbrev A22 (c : Dev nD) : S10000x512.Idx → EReal := V c main_v1_0
abbrev A23 (c : Dev nD) : S1x10000.Idx → EReal := V c main_v2
abbrev G2 (c : Dev nD) : S4096x10000.Idx → EReal := Cert.Spec.dist (A20 V c) (A21 V c) (A22 V c) (A23 V c)

/-- The proof data of the third pipeline on core c. -/
def dat2 (c : Dev nD) : Dat τ (Elt Ideal) Unit ℕ (UR sig nD τ) ℕ cfg2 c where
  A w := V c (Pipeline.arrRef spec2 w)
  after w t := match w with
    | ⟨0, _⟩ => (win2_0.blk t).view.read (Elt Ideal) (V c main_v0_0)
    | ⟨1, _⟩ => (win2_1.blk t).view.read (Elt Ideal) (V c main_v0_1)
    | ⟨2, _⟩ => win2_2.fill (grid2.coords t) (fun _ => (0 : EReal)) ((win2_2.blk t).view.read (Elt Ideal) (V c main_v1_0))
    | ⟨3, _⟩ => win2_3.fill (grid2.coords t) (fun _ => (0 : EReal)) ((win2_3.blk t).view.read (Elt Ideal) (V c main_v2))
    | ⟨4, _⟩ => win2_4.fill (grid2.coords t) (fun _ => (0 : EReal)) ((win2_4.blk t).view.read (Elt Ideal) (G2 V c))
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) :
    (dat2 V c).after 0 t = (win2_0.blk t).view.read (Elt Ideal) (V c main_v0_0) := by dsimp only [dat2]
theorem after2_1 (c : Dev nD) (t : Fin cfg2.N) :
    (dat2 V c).after 1 t = (win2_1.blk t).view.read (Elt Ideal) (V c main_v0_1) := by dsimp only [dat2]
theorem after2_2 (c : Dev nD) (t : Fin cfg2.N) :
    (dat2 V c).after 2 t = win2_2.fill (grid2.coords t) (fun _ => (0 : EReal)) ((win2_2.blk t).view.read (Elt Ideal) (V c main_v1_0)) := by
  dsimp only [dat2]
theorem after2_3 (c : Dev nD) (t : Fin cfg2.N) :
    (dat2 V c).after 3 t = win2_3.fill (grid2.coords t) (fun _ => (0 : EReal)) ((win2_3.blk t).view.read (Elt Ideal) (V c main_v2)) := by
  dsimp only [dat2]
theorem after2_4 (c : Dev nD) (t : Fin cfg2.N) :
    (dat2 V c).after 4 t = win2_4.fill (grid2.coords t) (fun _ => (0 : EReal)) ((win2_4.blk t).view.read (Elt Ideal) (G2 V c)) := by
  dsimp only [dat2]

/-- What the write-back at a point moves: the block of the distances. -/
theorem flushed2_4 (c : Dev nD) (t : Fin cfg2.N) : (dat2 V c).flushed 4 t = (win2_4.blk t).view.read (Elt Ideal) (G2 V c) := by
  show (cfg2.win 4).cut (grid2.coords t) ((dat2 V c).after 4 t) = _
  rw [after2_4]
  exact win2_4.cut_fill _ _ _

/-- The two left-hand inputs' staging buffers hold their blocks when the body runs: each is fetched at every point
    and no block of theirs overhangs its array. -/
theorem before2_0 (c : Dev nD) (t : Fin cfg2.N) (d) :
    (dat2 V c).before 0 t d = (win2_0.blk t).view.read (Elt Ideal) (V c main_v0_0) := by
  rw [(dat2 V c).before_fetched 0 t (fetch2_0 t)]
  unfold Dat.fetched Dat.blockOf
  rw [A_eq2]
  try rfl
theorem before2_1 (c : Dev nD) (t : Fin cfg2.N) (d) :
    (dat2 V c).before 1 t d = (win2_1.blk t).view.read (Elt Ideal) (V c main_v0_1) := by
  rw [(dat2 V c).before_fetched 1 t (fetch2_1 t)]
  unfold Dat.fetched Dat.blockOf
  rw [A_eq2]
  try rfl

/-- Where a right-hand input's block is cut is a function of its block index. -/
theorem hclip2_2 : ∀ t t' : Fin cfg2.N, (cfg2.win 2).index t = (cfg2.win 2).index t' →
    (cfg2.win 2).clip (cfg2.grid.coords t) = (cfg2.win 2).clip (cfg2.grid.coords t') := fun t t' h => funext fun a => by
  show Pipeline.Clip.of ((cfg2.win 2).index t a) _ _ = Pipeline.Clip.of ((cfg2.win 2).index t' a) _ _
  rw [h]
theorem hclip2_3 : ∀ t t' : Fin cfg2.N, (cfg2.win 3).index t = (cfg2.win 3).index t' →
    (cfg2.win 3).clip (cfg2.grid.coords t) = (cfg2.win 3).clip (cfg2.grid.coords t') := fun t t' h => funext fun a => by
  show Pipeline.Clip.of ((cfg2.win 3).index t a) _ _ = Pipeline.Clip.of ((cfg2.win 3).index t' a) _ _
  rw [h]

/-- The two right-hand inputs' staging buffers hold, when the body runs, their blocks on the part inside the array
    and anything past its end — fetched at this point or left in place since the column of tiles began. -/
theorem before2_2 (c : Dev nD) (t : Fin cfg2.N) (d) :
    (dat2 V c).before 2 t d = win2_2.fill (grid2.coords t) d ((win2_2.blk t).view.read (Elt Ideal) (V c main_v1_0)) := by
  rw [(dat2 V c).before_in_eq_fetched 2 rfl (fun _ => rfl) hclip2_2 (fun t => by
    rw [after2_2]; unfold Dat.blockOf; rw [A_eq2]; exact win2_2.cut_fill _ _ _) t d]
  unfold Dat.fetched Dat.blockOf
  rw [A_eq2]
  try rfl
theorem before2_3 (c : Dev nD) (t : Fin cfg2.N) (d) :
    (dat2 V c).before 3 t d = win2_3.fill (grid2.coords t) d ((win2_3.blk t).view.read (Elt Ideal) (V c main_v2)) := by
  rw [(dat2 V c).before_in_eq_fetched 3 rfl (fun _ => rfl) hclip2_3 (fun t => by
    rw [after2_3]; unfold Dat.blockOf; rw [A_eq2]; exact win2_3.cut_fill _ _ _) t d]
  unfold Dat.fetched Dat.blockOf
  rw [A_eq2]
  try rfl

/-- The output's staging buffer holds anything: it is written back at every point. -/
theorem before2_4 (c : Dev nD) (t : Fin cfg2.N) (d) : (dat2 V c).before 4 t d = d := by
  refine (dat2 V c).before_out_reset 4 rfl t ?_ d
  by_cases h : t.val = 0
  · exact .inl h
  · exact .inr ⟨h, flush2_4 _⟩

/-- What each cut buffer holds after the body agrees, on its part inside the array, with what the proof data names:
    filling the former with the latter's part inside the array changes nothing. -/
theorem keep2_2 (c : Dev nD) (t : Fin cfg2.N) (d2 : S1280x512.Idx → EReal) :
    (win2 2).fill (grid2.coords t) (win2_2.fill (grid2.coords t) d2 ((win2_2.blk t).view.read (Elt Ideal) (V c main_v1_0)))
        ((win2 2).cut (grid2.coords t) ((dat2 V c).after 2 t))
      = win2_2.fill (grid2.coords t) d2 ((win2_2.blk t).view.read (Elt Ideal) (V c main_v1_0)) := by
  refine (win2 2).fill_congr_cut (grid2.coords t) ?_
  rw [after2_2]
  exact (win2_2.cut_fill _ _ _).trans (win2_2.cut_fill _ _ _).symm
theorem keep2_3 (c : Dev nD) (t : Fin cfg2.N) (d3 : S1x1280.Idx → EReal) :
    (win2 3).fill (grid2.coords t) (win2_3.fill (grid2.coords t) d3 ((win2_3.blk t).view.read (Elt Ideal) (V c main_v2)))
        ((win2 3).cut (grid2.coords t) ((dat2 V c).after 3 t))
      = win2_3.fill (grid2.coords t) d3 ((win2_3.blk t).view.read (Elt Ideal) (V c main_v2)) := by
  refine (win2 3).fill_congr_cut (grid2.coords t) ?_
  rw [after2_3]
  exact (win2_3.cut_fill _ _ _).trans (win2_3.cut_fill _ _ _).symm
theorem keep2_4 (c : Dev nD) (t : Fin cfg2.N) (d2 : S1280x512.Idx → EReal) (d3 : S1x1280.Idx → EReal) :
    (win2 4).fill (grid2.coords t)
        (k2_pay1 (F := Ideal) ((win2_0.blk t).view.read (Elt Ideal) (V c main_v0_0))
        (win2_2.fill (grid2.coords t) d2 ((win2_2.blk t).view.read (Elt Ideal) (V c main_v1_0)))
        ((win2_1.blk t).view.read (Elt Ideal) (V c main_v0_1))
        (win2_3.fill (grid2.coords t) d3 ((win2_3.blk t).view.read (Elt Ideal) (V c main_v2))))
        ((win2 4).cut (grid2.coords t) ((dat2 V c).after 4 t))
      = k2_pay1 (F := Ideal) ((win2_0.blk t).view.read (Elt Ideal) (V c main_v0_0))
        (win2_2.fill (grid2.coords t) d2 ((win2_2.blk t).view.read (Elt Ideal) (V c main_v1_0)))
        ((win2_1.blk t).view.read (Elt Ideal) (V c main_v0_1))
        (win2_3.fill (grid2.coords t) d3 ((win2_3.blk t).view.read (Elt Ideal) (V c main_v2))) := by
  refine (win2 4).fill_congr_cut (grid2.coords t) ?_
  exact (pay1_cut (A20 V c) (A21 V c) (A22 V c) (A23 V c) t d2 d3).trans (flushed2_4 V c t).symm

/-- The pipeline rule's body obligation, each cut buffer stated on its part inside the array. -/
theorem body_obligation2 (c : Dev nD) : BodyObligationLoose (dat2 V c) (defs₀ (F := Ideal)) Variants.none () Set.univ := fun t => by
  rw [bigSep_W2, bigSep_W2]
  simp only
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩, ⟨%d4, H4⟩⟩
  rw [before2_0 V c t d0, before2_1 V c t d1, before2_2 V c t d2, before2_3 V c t d3, before2_4 V c t d4,
    after2_0, after2_1]
  iapply (sound_kernel2 (F := Ideal) c Set.univ (grid2.coords t)
    (win2_0.stage (cfg2.slots t 0)) (hstage2_0 ((cfg2.slots t 0).cast nbuf2_0))
    (win2_1.stage (cfg2.slots t 1)) (hstage2_1 ((cfg2.slots t 1).cast nbuf2_1))
    (win2_2.stage (cfg2.slots t 2)) (hstage2_2 ((cfg2.slots t 2).cast nbuf2_2))
    (win2_3.stage (cfg2.slots t 3)) (hstage2_3 ((cfg2.slots t 3).cast nbuf2_3))
    (win2_4.stage (cfg2.slots t 4)) (hstage2_4 ((cfg2.slots t 4).cast nbuf2_4))
    ((win2_0.blk t).view.read (Elt Ideal) (V c main_v0_0))
    ((win2_1.blk t).view.read (Elt Ideal) (V c main_v0_1))
    (win2_2.fill (grid2.coords t) d2 ((win2_2.blk t).view.read (Elt Ideal) (V c main_v1_0)))
    (win2_3.fill (grid2.coords t) d3 ((win2_3.blk t).view.read (Elt Ideal) (V c main_v2))) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  have e2 := keep2_2 V c t d2
  have e3 := keep2_3 V c t d3
  have e4 := keep2_4 V c t d2 d3
  isplitl [H2]
  · iexists (win2_2.fill (grid2.coords t) d2 ((win2_2.blk t).view.read (Elt Ideal) (V c main_v1_0)))
    rw [e2]; iexact H2
  isplitl [H3]
  · iexists (win2_3.fill (grid2.coords t) d3 ((win2_3.blk t).view.read (Elt Ideal) (V c main_v2)))
    rw [e3]; iexact H3
  · iexists (k2_pay1 (F := Ideal) ((win2_0.blk t).view.read (Elt Ideal) (V c main_v0_0))
        (win2_2.fill (grid2.coords t) d2 ((win2_2.blk t).view.read (Elt Ideal) (V c main_v1_0)))
        ((win2_1.blk t).view.read (Elt Ideal) (V c main_v0_1))
        (win2_3.fill (grid2.coords t) d3 ((win2_3.blk t).view.read (Elt Ideal) (V c main_v2))))
    rw [e4]; iexact H4

end Cert.KernelIdeal.Hand

end
-- ==== Proof.KI.Run.lean ====
/-
  The run of the whole program at the ideal values: three pallas_calls and one host transpose, from the launch to
  the return. The buffer contents at each boundary are a fold from the launch memory: a call leaves its arrays at
  what its write-backs fold to and every other buffer as it found it; the host stretch leaves what the transpose
  writes. Each call is a segment of the run over the thread state "every unscoped buffer at the boundary's contents,
  the generator register at some state, nothing owed"; the run reads every unscoped buffer at the last boundary.
-/
import proofs.«139165_j18451179503909_1_alg».proof.Proof.Gen.KernelIdeal.Launch
import proofs.«139165_j18451179503909_1_alg».proof.Proof.Gen.KernelIdeal.Skeleton
import proofs.«139165_j18451179503909_1_alg».proof.Proof.Gen.KernelIdeal.Points
import proofs.«139165_j18451179503909_1_alg».proof.Proof.KI.Region0
import proofs.«139165_j18451179503909_1_alg».proof.Proof.KI.Region1
import proofs.«139165_j18451179503909_1_alg».proof.Proof.KI.Region2
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! # The buffer contents at each boundary: a fold through the program -/

/-- Core c's buffers at launch (the first call's entry). -/
abbrev W0 : Dev nD → Valuation τ sig (Elt Ideal) := fun c b => (s₀ m ρ).mem ((c : Dev nD), b)
/-- The same read at the TensorCore's references (what the first call's proof data take). -/
abbrev V0 : (c : Dev nD) → (b : Ref sig .tc) → Buf (Elt Ideal) ((c : Thread nD τ).loc b) := fun c b => W0 m ρ c b
/-- After the first call: its arrays at what its write-backs fold to, every other buffer as entered. -/
abbrev W1 : Dev nD → Valuation τ sig (Elt Ideal) := fun c =>
  Pipeline.withArrays spec0 c (W0 m ρ c) fun w => (dat0 (F := Ideal) (V0 m ρ) c).arrAt w cfg0.N
theorem W1_arr (c : Dev nD) (w : Fin cfg0.W) :
    W1 m ρ c (Proc.devRef .tc (Pipeline.arrRef spec0 w)) = (dat0 (F := Ideal) (V0 m ρ) c).arrAt w cfg0.N :=
  Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) :=
  Pipeline.withArrays_of_ne spec0 c _ _ b hb
/-- The same read at the TensorCore's references (the second call's entry contents). -/
abbrev V1 : (c : Dev nD) → (b : Ref sig .tc) → Buf (Elt Ideal) ((c : Thread nD τ).loc b) := fun c b => W1 m ρ c b
theorem hF0 (c : Dev nD) (w : Fin cfg0.W) : (dat0 (F := Ideal) (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the second call: its arrays at what its write-backs fold to, every other buffer as entered. -/
abbrev W2 : Dev nD → Valuation τ sig (Elt Ideal) := fun c =>
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N :=
  Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) :=
  Pipeline.withArrays_of_ne spec1 c _ _ b hb
/-- The same read at the TensorCore's references (the second call's exit contents). -/
abbrev V2 : (c : Dev nD) → (b : Ref sig .tc) → Buf (Elt Ideal) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the host transpose (the third call's entry). -/
abbrev W3 : Dev nD → Valuation τ sig (Elt Ideal) := fun c => StableHlo.after (hostOps2 (F := Ideal)) (W2 m ρ c)
/-- The same read at the TensorCore's references (what the third call's proof data take). -/
abbrev V3 : (c : Dev nD) → (b : Ref sig .tc) → Buf (Elt Ideal) ((c : Thread nD τ).loc b) := fun c b => W3 m ρ c b
/-- After the third call: its arrays at what its write-backs fold to, every other buffer as entered. -/
abbrev W4 : Dev nD → Valuation τ sig (Elt Ideal) := fun c =>
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N :=
  Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) :=
  Pipeline.withArrays_of_ne spec2 c _ _ b hb
/-- The same read at the TensorCore's references (the third call's exit contents). -/
abbrev V4 : (c : Dev nD) → (b : Ref sig .tc) → Buf (Elt Ideal) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ## The arguments end as launched: the transpose writes neither, and a call reads an argument through an input
    window (whose array it leaves as entered) or does not name it -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := (W1_arr m ρ c 0).trans (((dat0 (F := Ideal) (V0 m ρ) c).arrAt_in 0 rfl _).trans (A_eq0 (V0 m ρ) c 0))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 0).trans (((dat1 (V1 m ρ) c).arrAt_in 0 rfl _).trans (A_eq1 (V1 m ρ) c 0))
    _ = W0 m ρ c (Proc.devRef .tc main_arg1) := W1_of_ne m ρ c main_arg1 (by decide)
    _ = m ((c : Thread nD τ).loc main_arg1) := rfl

/-! # The proof data family and the thread state -/

/-- The prefetched tables' admissible contents: no call has a table. -/
abbrev adm : (p : Fin 3) → (pcfgs (F := Ideal) p).Adm := fun p => (cfgs p).toPCfg_adm
/-- Every call's proof data, each at its entry contents. -/
def pdats : (p : Fin 3) → (c : Dev nD) → Dat τ (Elt Ideal) Unit ℕ (UR sig nD τ) ℕ (Pipeline.pin (pcfgs (F := Ideal)) adm p) c
  | ⟨0, _⟩ => fun c => dat0 (F := Ideal) (V0 m ρ) c
  | ⟨1, _⟩ => fun c => dat1 (V1 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt Ideal))) (hsub : ops.Forall fun op => op.bufs ⊆ StableHlo.tcRefs τ sig)
    (hfresh : ops.Forall fun op => op.fresh = ∅) (W : Dev nD → Valuation τ sig (Elt Ideal)) :
    Pipeline.HostSeg (Name := ℕ) (U := UR sig nD τ) (pcfgs (F := Ideal)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The transpose allocates no buffer. -/
theorem hostOps2_fresh : (hostOps2 : List (HloOp τ sig (Elt Ideal))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! # The calls as segments -/

set_option backward.isDefEq.respectTransparency.types false in
/-- Call 0 over the thread state: entered from every unscoped buffer at W0, left at W1. Its arrays are
    split out of the unscoped buffers and put back at the exit contents; the generator register goes into the
    invariant and comes out; nothing is owed; the kernel has no semaphore of its own. -/
def reg0 : Pipeline.RegionSeg (pcfgs (F := Ideal)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (F := Ideal) (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := Ideal)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := Ideal)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered from every unscoped buffer at W1, left at W2. Its arrays are
    split out of the unscoped buffers and put back at the exit contents; the generator register goes into the
    invariant and comes out; nothing is owed; the kernel has no semaphore of its own. -/
def reg1 : Pipeline.RegionSeg (pcfgs (F := Ideal)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := body_obligation1 (V1 m ρ) c
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := Ideal)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := Ideal)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: entered from every unscoped buffer at W3, left at W4. Its arrays are
    split out of the unscoped buffers and put back at the exit contents; the generator register goes into the
    invariant and comes out; nothing is owed; the kernel has no semaphore of its own. -/
def reg2 : Pipeline.RegionSeg (pcfgs (F := Ideal)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := body_obligation2 (V3 m ρ) c
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := Ideal)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := Ideal)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # The program as segments, and the run -/

/-- The program's four segments in order: a call, a call, the host transpose from the second call's exit contents,
    a call. -/
abbrev segs : List (Pipeline.Seg (pcfgs (F := Ideal)) adm (pdats m ρ) () defs₀ 𝒱₀ L lv) :=
  [ .region (reg0 m ρ),
    .region (reg1 m ρ),
    .host (hseg hostOps2 hostOps2_sub hostOps2_fresh (W2 m ρ)),
    .region (reg2 m ρ) ]
/-- The program is the run of the segments. -/
theorem main_run (c : Dev nD) : main (F := Ideal) c = Pipeline.Seg.run (segs m ρ) := (main_chain c).trans (by chain_rfl)

set_option backward.isDefEq.respectTransparency.types false in
/-- THE RUN: from any memory with zero counters, every weakly fair execution of the program on the TensorCores
    terminates, nothing faulting, and every final state holds every unscoped buffer at the last boundary's contents. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.KernelIdeal.Hand

end
-- ==== Proof.KI.Final.lean ====
/-
  What the five arrays the three calls write hold when each call returns, at the ideal values and for any contents V
  of the core's buffers when the call is entered: the first call's two arrays hold the scaled rows of its argument
  and their squared lengths; the second call's two hold the same of its argument; the third call's holds the
  pairwise squared distances computed from the four arrays it reads. Each is one argument: every write-back moves
  its block of the closed form, and the blocks of the points together cover the array (the last block of an axis
  that the blocks overhang is cut at the array's end and still reaches its last index).
-/
import proofs.«139165_j18451179503909_1_alg».proof.Proof.KI.Region0
import proofs.«139165_j18451179503909_1_alg».proof.Proof.KI.Region1
import proofs.«139165_j18451179503909_1_alg».proof.Proof.KI.Region2
import proofs.«139165_j18451179503909_1_alg».proof.Proof.KI.Val1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Idealize.ShloMosaic.ValueIdx

variable (V : (c : Dev nD) → (b : Ref sig .tc) → Buf (Elt Ideal) ((c : Thread nD τ).loc b))

/-! ## The first call: 512 rows a block, eight blocks, each inside its array -/

/-- The matrix the first call normalises, as it finds it. -/
abbrev P0 (c : Dev nD) : S4096x512.Idx → EReal := V c main_arg0

/-- What each write-back of the first call moves: the block of the closed form (an uncut block is moved whole). -/
theorem flushed0_1 (c : Dev nD) (t : Fin cfg0.N) :
    (dat0 (F := Ideal) V c).flushed 1 t = (win0_1.blk t).view.read (Elt Ideal) (Cert.Spec.normRows (P0 V c)) := by
  show (cfg0.win 1).cut (grid0.coords t) ((dat0 (F := Ideal) V c).after 1 t) = _
  rw [after0_1]
  exact pay2_blk0 (P0 V c) t

theorem flushed0_2 (c : Dev nD) (t : Fin cfg0.N) :
    (dat0 (F := Ideal) V c).flushed 2 t = (win0_2.blk t).view.read (Elt Ideal) (Cert.Spec.sqRows (P0 V c)) := by
  show (cfg0.win 2).cut (grid0.coords t) ((dat0 (F := Ideal) V c).after 2 t) = _
  rw [after0_2]
  exact pay3_blk0 (P0 V c) t

/-- The printed index maps of the two outputs, decided over the grid: block t is rows 512·t … of every column. -/
theorem idx0_1 : ∀ t : Fin cfg0.N, win0_1.index t 0 = t.val ∧ win0_1.index t 1 = 0 :=
  (by decide +kernel : ∀ t : Fin grid0.N, win0_1.index t 0 = t.val ∧ win0_1.index t 1 = 0)
theorem idx0_2 : ∀ t : Fin cfg0.N, win0_2.index t 0 = t.val ∧ win0_2.index t 1 = 0 :=
  (by decide +kernel : ∀ t : Fin grid0.N, win0_2.index t 0 = t.val ∧ win0_2.index t 1 = 0)

/-- Row r lies in block r / 512. -/
theorem cover0_1 (i : S4096x512.Idx) :
    ∃ t : Fin cfg0.N, (cfg0.win 1).flush t = true ∧ i ∈ ((cfg0.win 1).blk t).view.set := by
  have h0 : (i 0).val < 4096 := (i 0).isLt
  have h1 : (i 1).val < 512 := (i 1).isLt
  obtain ⟨t, ht⟩ : ∃ t : Fin cfg0.N, t.val = (i 0).val / 512 :=
    ⟨⟨(i 0).val / 512, by rw [show cfg0.N = 8 from N_0]; omega⟩, rfl⟩
  refine ⟨t, flush0_1 t, ?_⟩
  show i ∈ ((View.whole main_v0_0).slice (win0_1.rect t)).set
  rw [View.set_slice_whole, Rect.mem_set_unit]
  obtain ⟨e0, e1⟩ := idx0_1 t
  intro a
  match a with
  | ⟨0, _⟩ =>
    show win0_1.index t 0 * 512 ≤ (i 0).val ∧ (i 0).val < win0_1.index t 0 * 512 + 512
    rw [e0]; omega
  | ⟨1, _⟩ =>
    show win0_1.index t 1 * 512 ≤ (i 1).val ∧ (i 1).val < win0_1.index t 1 * 512 + 512
    rw [e1]; omega

theorem cover0_2 (i : S4096x1.Idx) :
    ∃ t : Fin cfg0.N, (cfg0.win 2).flush t = true ∧ i ∈ ((cfg0.win 2).blk t).view.set := by
  have h0 : (i 0).val < 4096 := (i 0).isLt
  have h1 : (i 1).val < 1 := (i 1).isLt
  obtain ⟨t, ht⟩ : ∃ t : Fin cfg0.N, t.val = (i 0).val / 512 :=
    ⟨⟨(i 0).val / 512, by rw [show cfg0.N = 8 from N_0]; omega⟩, rfl⟩
  refine ⟨t, flush0_2 t, ?_⟩
  show i ∈ ((View.whole main_v0_1).slice (win0_2.rect t)).set
  rw [View.set_slice_whole, Rect.mem_set_unit]
  obtain ⟨e0, e1⟩ := idx0_2 t
  intro a
  match a with
  | ⟨0, _⟩ =>
    show win0_2.index t 0 * 512 ≤ (i 0).val ∧ (i 0).val < win0_2.index t 0 * 512 + 512
    rw [e0]; omega
  | ⟨1, _⟩ =>
    show win0_2.index t 1 * 1 ≤ (i 1).val ∧ (i 1).val < win0_2.index t 1 * 1 + 1
    rw [e1]; omega

/-- The first call's two arrays when it returns. -/
theorem final0_1 (c : Dev nD) : (dat0 (F := Ideal) V c).arrAt 1 cfg0.N = Cert.Spec.normRows (V c main_arg0) :=
  (dat0 (F := Ideal) V c).arrAt_eq_of_cover 1 (Cert.Spec.normRows (P0 V c)) (fun t _ => flushed0_1 V c t) cover0_1

theorem final0_2 (c : Dev nD) : (dat0 (F := Ideal) V c).arrAt 2 cfg0.N = Cert.Spec.sqRows (V c main_arg0) :=
  (dat0 (F := Ideal) V c).arrAt_eq_of_cover 2 (Cert.Spec.sqRows (P0 V c)) (fun t _ => flushed0_2 V c t) cover0_2

/-! ## The second call: 1280 rows a block, eight blocks, the last cut to the 1040 rows inside the array -/

/-- The printed index maps and cuts, decided over the grid: block t is rows 1280·t … up to the array's end. -/
theorem idx1_1 : ∀ t : Fin cfg1.N, win1_1.index t 0 = t.val ∧ win1_1.index t 1 = 0
    ∧ win1_1.index t 0 * 1280 + win1_1.xsize (grid1.coords t) 0 = min ((t.val + 1) * 1280) 10000
    ∧ win1_1.xsize (grid1.coords t) 1 = 512 :=
  (by decide +kernel : ∀ t : Fin grid1.N, win1_1.index t 0 = t.val ∧ win1_1.index t 1 = 0
    ∧ win1_1.index t 0 * 1280 + win1_1.xsize (grid1.coords t) 0 = min ((t.val + 1) * 1280) 10000
    ∧ win1_1.xsize (grid1.coords t) 1 = 512)
theorem idx1_2 : ∀ t : Fin cfg1.N, win1_2.index t 0 = t.val ∧ win1_2.index t 1 = 0
    ∧ win1_2.index t 0 * 1280 + win1_2.xsize (grid1.coords t) 0 = min ((t.val + 1) * 1280) 10000
    ∧ win1_2.xsize (grid1.coords t) 1 = 1 :=
  (by decide +kernel : ∀ t : Fin grid1.N, win1_2.index t 0 = t.val ∧ win1_2.index t 1 = 0
    ∧ win1_2.index t 0 * 1280 + win1_2.xsize (grid1.coords t) 0 = min ((t.val + 1) * 1280) 10000
    ∧ win1_2.xsize (grid1.coords t) 1 = 1)

/-- Row r lies in block r / 1280: the last block's 1040 rows reach row 9999. -/
theorem cover1_1 (i : S10000x512.Idx) :
    ∃ t : Fin cfg1.N, (cfg1.win 1).flush t = true ∧ i ∈ ((cfg1.win 1).blk t).view.set := by
  have h0 : (i 0).val < 10000 := (i 0).isLt
  have h1 : (i 1).val < 512 := (i 1).isLt
  obtain ⟨t, ht⟩ : ∃ t : Fin cfg1.N, t.val = (i 0).val / 1280 :=
    ⟨⟨(i 0).val / 1280, by rw [show cfg1.N = 8 from N_1]; omega⟩, rfl⟩
  refine ⟨t, flush1_1 t, ?_⟩
  show i ∈ ((View.whole main_v1_0).slice (win1_1.rect t)).set
  rw [View.set_slice_whole, Rect.mem_set_unit]
  obtain ⟨e0, e1, e2, e3⟩ := idx1_1 t
  intro a
  match a with
  | ⟨0, _⟩ =>
    show win1_1.index t 0 * 1280 ≤ (i 0).val ∧ (i 0).val < win1_1.index t 0 * 1280 + win1_1.xsize (grid1.coords t) 0
    rw [e2, e0]; omega
  | ⟨1, _⟩ =>
    show win1_1.index t 1 * 512 ≤ (i 1).val ∧ (i 1).val < win1_1.index t 1 * 512 + win1_1.xsize (grid1.coords t) 1
    rw [e3, e1]; omega

theorem cover1_2 (i : S10000x1.Idx) :
    ∃ t : Fin cfg1.N, (cfg1.win 2).flush t = true ∧ i ∈ ((cfg1.win 2).blk t).view.set := by
  have h0 : (i 0).val < 10000 := (i 0).isLt
  have h1 : (i 1).val < 1 := (i 1).isLt
  obtain ⟨t, ht⟩ : ∃ t : Fin cfg1.N, t.val = (i 0).val / 1280 :=
    ⟨⟨(i 0).val / 1280, by rw [show cfg1.N = 8 from N_1]; omega⟩, rfl⟩
  refine ⟨t, flush1_2 t, ?_⟩
  show i ∈ ((View.whole main_v1_1).slice (win1_2.rect t)).set
  rw [View.set_slice_whole, Rect.mem_set_unit]
  obtain ⟨e0, e1, e2, e3⟩ := idx1_2 t
  intro a
  match a with
  | ⟨0, _⟩ =>
    show win1_2.index t 0 * 1280 ≤ (i 0).val ∧ (i 0).val < win1_2.index t 0 * 1280 + win1_2.xsize (grid1.coords t) 0
    rw [e2, e0]; omega
  | ⟨1, _⟩ =>
    show win1_2.index t 1 * 1 ≤ (i 1).val ∧ (i 1).val < win1_2.index t 1 * 1 + win1_2.xsize (grid1.coords t) 1
    rw [e3, e1]; omega

/-- The second call's two arrays when it returns. -/
theorem final1_1 (c : Dev nD) : (dat1 V c).arrAt 1 cfg1.N = G1a V c :=
  (dat1 V c).arrAt_eq_of_cover 1 (G1a V c) (fun t _ => flushed1_1 V c t) cover1_1

theorem final1_2 (c : Dev nD) : (dat1 V c).arrAt 2 cfg1.N = G1b V c :=
  (dat1 V c).arrAt_eq_of_cover 2 (G1b V c) (fun t _ => flushed1_2 V c t) cover1_2

/-! ## The third call: 512 × 1280 tiles, point 8·ci + bi the tile of row block bi and column block ci -/

/-- The printed index map and cuts, decided over the grid: the tile at point t is rows 512·(t mod 8) … and columns
    1280·(t / 8) … up to the array's end. -/
theorem idx2_4 : ∀ t : Fin cfg2.N, win2_4.index t 0 = t.val % 8 ∧ win2_4.index t 1 = t.val / 8
    ∧ win2_4.xsize (grid2.coords t) 0 = 512
    ∧ win2_4.index t 1 * 1280 + win2_4.xsize (grid2.coords t) 1 = min ((t.val / 8 + 1) * 1280) 10000 :=
  (by decide +kernel : ∀ t : Fin grid2.N, win2_4.index t 0 = t.val % 8 ∧ win2_4.index t 1 = t.val / 8
    ∧ win2_4.xsize (grid2.coords t) 0 = 512
    ∧ win2_4.index t 1 * 1280 + win2_4.xsize (grid2.coords t) 1 = min ((t.val / 8 + 1) * 1280) 10000)

/-- Entry (r, k) lies in the tile of row block r / 512 and column block k / 1280: the last column of tiles, cut to
    1040 columns, reaches column 9999. -/
theorem cover2_4 (i : S4096x10000.Idx) :
    ∃ t : Fin cfg2.N, (cfg2.win 4).flush t = true ∧ i ∈ ((cfg2.win 4).blk t).view.set := by
  have h0 : (i 0).val < 4096 := (i 0).isLt
  have h1 : (i 1).val < 10000 := (i 1).isLt
  obtain ⟨t, ht⟩ : ∃ t : Fin cfg2.N, t.val = (i 1).val / 1280 * 8 + (i 0).val / 512 :=
    ⟨⟨(i 1).val / 1280 * 8 + (i 0).val / 512, by rw [show cfg2.N = 64 from N_2]; omega⟩, rfl⟩
  refine ⟨t, flush2_4 t, ?_⟩
  show i ∈ ((View.whole main_v3).slice (win2_4.rect t)).set
  rw [View.set_slice_whole, Rect.mem_set_unit]
  obtain ⟨e0, e1, e2, e3⟩ := idx2_4 t
  intro a
  match a with
  | ⟨0, _⟩ =>
    show win2_4.index t 0 * 512 ≤ (i 0).val ∧ (i 0).val < win2_4.index t 0 * 512 + win2_4.xsize (grid2.coords t) 0
    rw [e2, e0]; omega
  | ⟨1, _⟩ =>
    show win2_4.index t 1 * 1280 ≤ (i 1).val ∧ (i 1).val < win2_4.index t 1 * 1280 + win2_4.xsize (grid2.coords t) 1
    rw [e3, e1]; omega

/-- The third call's array when it returns. -/
theorem final2_4 (c : Dev nD) : (dat2 V c).arrAt 4 cfg2.N = G2 V c :=
  (dat2 V c).arrAt_eq_of_cover 4 (G2 V c) (fun t _ => flushed2_4 V c t) cover2_4

end Cert.KernelIdeal.Hand

end
-- ==== Proof.KI.Value.lean ====
/-
  The value of the whole program at the ideal values. The run leaves every unscoped buffer at the last boundary's
  contents; read back through the fold, the result array holds the pairwise squared distances computed from the four
  arrays the third call reads, and each of those is a closed form of the launch contents: the first call's two arrays
  are the scaled rows of the first argument and their squared lengths, the second call's the same of the second
  argument, and the transpose lays the second column of squared lengths out as a row. Both arguments end as launched.
-/
import proofs.«139165_j18451179503909_1_alg».proof.Proof.KI.Run
import proofs.«139165_j18451179503909_1_alg».proof.Proof.KI.Final
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Idealize.ShloMosaic.ValueIdx

variable (m : (ℓ : Loc nD τ sig) → Buf (Elt Ideal) ℓ) (ρ : Dev nD → PrngReg)

/-! # The host transpose: it writes its result only -/

/-- Any buffer but the transpose's result is, after it, as the second call left it. -/
theorem W3_of_ne (c : Dev nD) (r : Ref sig .tc) (h : r ≠ main_v2) :
    W3 m ρ c (Proc.devRef .tc r) = W2 m ρ c (Proc.devRef .tc r) :=
  StableHlo.unary_result_ne _ _ _ _ _ (W2 m ρ c) h

/-! # The arrays the third call reads, as closed forms of the launch contents -/

/-- The second call finds its argument as launched: the first call does not name it. -/
theorem V1_main_arg1 (c : Dev nD) :
    (V1 m ρ c main_arg1 : S10000x512.Idx → EReal) = m ((c : Thread nD τ).loc main_arg1) :=
  (W1_of_ne m ρ c main_arg1 (by decide)).trans rfl

/-- The first argument's scaled rows: written by the first call, named by neither the second call nor the transpose. -/
theorem V3_main_v0_0 (c : Dev nD) :
    (V3 m ρ c main_v0_0 : S4096x512.Idx → EReal) = Cert.Spec.normRows (m ((c : Thread nD τ).loc main_arg0)) :=
  calc (V3 m ρ c main_v0_0 : S4096x512.Idx → EReal)
    _ = W2 m ρ c (Proc.devRef .tc main_v0_0) := W3_of_ne m ρ c main_v0_0 (by decide)
    _ = W1 m ρ c (Proc.devRef .tc main_v0_0) := W2_of_ne m ρ c main_v0_0 (by decide)
    _ = (dat0 (F := Ideal) (V0 m ρ) c).arrAt 1 cfg0.N := W1_arr m ρ c 1
    _ = Cert.Spec.normRows (V0 m ρ c main_arg0) := final0_1 (V0 m ρ) c
    _ = Cert.Spec.normRows (m ((c : Thread nD τ).loc main_arg0)) := rfl

/-- Their squared lengths, likewise. -/
theorem V3_main_v0_1 (c : Dev nD) :
    (V3 m ρ c main_v0_1 : S4096x1.Idx → EReal) = Cert.Spec.sqRows (m ((c : Thread nD τ).loc main_arg0)) :=
  calc (V3 m ρ c main_v0_1 : S4096x1.Idx → EReal)
    _ = W2 m ρ c (Proc.devRef .tc main_v0_1) := W3_of_ne m ρ c main_v0_1 (by decide)
    _ = W1 m ρ c (Proc.devRef .tc main_v0_1) := W2_of_ne m ρ c main_v0_1 (by decide)
    _ = (dat0 (F := Ideal) (V0 m ρ) c).arrAt 2 cfg0.N := W1_arr m ρ c 2
    _ = Cert.Spec.sqRows (V0 m ρ c main_arg0) := final0_2 (V0 m ρ) c
    _ = Cert.Spec.sqRows (m ((c : Thread nD τ).loc main_arg0)) := rfl

/-- The second argument's scaled rows: written by the second call, not by the transpose. -/
theorem V3_main_v1_0 (c : Dev nD) :
    (V3 m ρ c main_v1_0 : S10000x512.Idx → EReal) = Cert.Spec.normRows (m ((c : Thread nD τ).loc main_arg1)) :=
  calc (V3 m ρ c main_v1_0 : S10000x512.Idx → EReal)
    _ = W2 m ρ c (Proc.devRef .tc main_v1_0) := W3_of_ne m ρ c main_v1_0 (by decide)
    _ = (dat1 (V1 m ρ) c).arrAt 1 cfg1.N := W2_arr m ρ c 1
    _ = Cert.Spec.normRows (V1 m ρ c main_arg1) := final1_1 (V1 m ρ) c
    _ = Cert.Spec.normRows (m ((c : Thread nD τ).loc main_arg1)) := by rw [V1_main_arg1]

/-- Their squared lengths as the second call leaves them, a column. -/
theorem W2_main_v1_1 (c : Dev nD) :
    (W2 m ρ c (Proc.devRef .tc main_v1_1) : S10000x1.Idx → EReal) = Cert.Spec.sqRows (m ((c : Thread nD τ).loc main_arg1)) :=
  calc (W2 m ρ c (Proc.devRef .tc main_v1_1) : S10000x1.Idx → EReal)
    _ = (dat1 (V1 m ρ) c).arrAt 2 cfg1.N := W2_arr m ρ c 2
    _ = Cert.Spec.sqRows (V1 m ρ c main_arg1) := final1_2 (V1 m ρ) c
    _ = Cert.Spec.sqRows (m ((c : Thread nD τ).loc main_arg1)) := by rw [V1_main_arg1]

/-- The transpose's result: that column laid out as a row. -/
theorem V3_main_v2 (c : Dev nD) :
    (V3 m ρ c main_v2 : S1x10000.Idx → EReal) = Cert.Spec.asRow (Cert.Spec.sqRows (m ((c : Thread nD τ).loc main_arg1))) := by
  show StableHlo.after (hostOps2 (F := Ideal)) (W2 m ρ c) (Proc.devRef .tc main_v2) = _
  simp only [hostOps2]
  after_results
  rw [W2_main_v1_1]
  funext j
  obtain ⟨p, q, rfl⟩ : ∃ (p : Fin 1) (q : Fin 10000), j = ix2 p q := ⟨j 0, j 1, eq_ix2 j⟩
  rw [transpose_ix2_apply]
  obtain rfl : p = 0 := Subsingleton.elim _ _
  rfl

/-! # The result array and the run -/

/-- The last boundary's contents at the result array: the specification's result of the two launch arguments. -/
theorem W4_main_v3 (c : Dev nD) :
    (W4 m ρ c (Proc.devRef .tc main_v3) : S4096x10000.Idx → EReal)
      = Cert.Spec.result (m ((c : Thread nD τ).loc main_arg0)) (m ((c : Thread nD τ).loc main_arg1)) :=
  calc (W4 m ρ c (Proc.devRef .tc main_v3) : S4096x10000.Idx → EReal)
    _ = (dat2 (V3 m ρ) c).arrAt 4 cfg2.N := W4_arr m ρ c 4
    _ = Cert.Spec.dist (V3 m ρ c main_v0_0) (V3 m ρ c main_v0_1) (V3 m ρ c main_v1_0) (V3 m ρ c main_v2) := final2_4 (V3 m ρ) c
    _ = Cert.Spec.result (m ((c : Thread nD τ).loc main_arg0)) (m ((c : Thread nD τ).loc main_arg1)) := by
      rw [V3_main_v0_0, V3_main_v0_1, V3_main_v1_0, V3_main_v2]; rfl

/-- THE VALUE: from any memory with zero counters, every weakly fair execution of the program on the TensorCores
    terminates, nothing faulting, and every final state holds the specification's result of the two launch arguments
    in the result array and both arguments as launched. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v3) = Cert.Spec.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v3 (by decide))).trans (W4_main_v3 m ρ c),
     (h c _ (mem_uc main_arg0 (by decide))).trans (W4_main_arg0 m ρ c),
     (h c _ (mem_uc main_arg1 (by decide))).trans (W4_main_arg1 m ρ c)⟩) (run_all m ρ)

end Cert.KernelIdeal.Hand

end
-- ==== Proof.RefValue.lean ====
/-
  The reference program's result, read index by index at the extended reals, is the specification's function of
  the two argument matrices.

  The reference scales a row v as 3 · (v · r), r the reciprocal square root of the row's guarded squared length; the
  specification writes the same number as v · (3 · r). Multiplication of extended reals is commutative and
  associative, so the two agree with no finiteness assumed. Everything else is reading the layout operations at an
  index: a reduce over the second axis is the initial word (zero) plus the sum over that axis, a broadcast reads
  its operand at the coordinates it keeps, the contraction is the sum over the shared axis.
-/
import proofs.«139165_j18451179503909_1_alg».proof.Proof.Gen.ReferenceIdeal.Run
import proofs.«139165_j18451179503909_1_alg».proof.Proof.Gen.ReferenceIdeal.Read
import proofs.«139165_j18451179503909_1_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

/-! ## The scaled rows -/

/-- The reference's scaled copy of the first matrix is the specification's: 3 · (v · r) = v · (3 · r). -/
theorem v9_eq (x : S4096x512.Idx → EReal) : val_main_v9 (F := Ideal) x = Cert.Spec.normRows x := by
  funext i
  obtain ⟨a, k, rfl⟩ : ∃ (a : Fin 4096) (k : Fin 512), i = ix2 a k := ⟨i 0, i 1, eq_ix2 i⟩
  rw [val_main_v9_apply, val_main_v8_apply, val_main_cst_1_apply, val_main_v7_apply, val_main_v6_apply,
    val_main_v5_apply, val_main_v4_apply, val_main_v2_apply, val_main_v1_apply, val_main_cst_apply,
    val_main_v3_apply, val_main_cst_0_apply]
  simp only [val_main_v0_apply, Ideal.mulf_def, Ideal.maximumf_def, Ideal.hostUnary_rsqrt_def, Ideal.ofBits_def,
    Ideal.ofBits_zero_f32, zero_add]
  have e : ∀ k' : Fin 512, idx_main_v1 (idx_main_v2 (idx_main_v6 (ix2 a k))) k' = ix2 a k' := fun k' =>
    funext fun d => by match d with | ⟨0, _⟩ => rfl | ⟨1, _⟩ => rfl
  simp only [e]
  exact mul_left_comm _ _ _

/-- The same for the second matrix. -/
theorem v19_eq (p : S10000x512.Idx → EReal) : val_main_v19 (F := Ideal) p = Cert.Spec.normRows p := by
  funext i
  obtain ⟨b, k, rfl⟩ : ∃ (b : Fin 10000) (k : Fin 512), i = ix2 b k := ⟨i 0, i 1, eq_ix2 i⟩
  rw [val_main_v19_apply, val_main_v18_apply, val_main_cst_4_apply, val_main_v17_apply, val_main_v16_apply,
    val_main_v15_apply, val_main_v14_apply, val_main_v12_apply, val_main_v11_apply, val_main_cst_2_apply,
    val_main_v13_apply, val_main_cst_3_apply]
  simp only [val_main_v10_apply, Ideal.mulf_def, Ideal.maximumf_def, Ideal.hostUnary_rsqrt_def, Ideal.ofBits_def,
    Ideal.ofBits_zero_f32, zero_add]
  have e : ∀ k' : Fin 512, idx_main_v11 (idx_main_v12 (idx_main_v16 (ix2 b k))) k' = ix2 b k' := fun k' =>
    funext fun d => by match d with | ⟨0, _⟩ => rfl | ⟨1, _⟩ => rfl
  simp only [e]
  exact mul_left_comm _ _ _

/-! ## The squared lengths of the scaled rows, laid out over the result -/

/-- The first matrix's squared row lengths, spread along the result's rows. -/
theorem v27_apply (x : S4096x512.Idx → EReal) (a : Fin 4096) (b : Fin 10000) :
    val_main_v27 (F := Ideal) x (ix2 a b) = Cert.Spec.sqRows x (ix2 a 0) := by
  rw [val_main_v27_apply, val_main_v22_apply, val_main_v21_apply, val_main_cst_5_apply]
  simp only [val_main_v20_apply, v9_eq, Ideal.mulf_def, Ideal.ofBits_def, Ideal.ofBits_zero_f32, zero_add]
  have e : ∀ k : Fin 512, idx_main_v21 (idx_main_v22 (idx_main_v27 (ix2 a b))) k = ix2 a k := fun k =>
    funext fun d => by match d with | ⟨0, _⟩ => rfl | ⟨1, _⟩ => rfl
  simp only [e]
  rfl

/-- The second matrix's squared row lengths, as a row spread along the result's columns. -/
theorem v28_apply (p : S10000x512.Idx → EReal) (a : Fin 4096) (b : Fin 10000) :
    val_main_v28 (F := Ideal) p (ix2 a b) = Cert.Spec.asRow (Cert.Spec.sqRows p) (ix2 0 b) := by
  rw [val_main_v28_apply, val_main_v26_apply, val_main_v24_apply, val_main_cst_6_apply]
  simp only [val_main_v23_apply, v19_eq, Ideal.mulf_def, Ideal.ofBits_def, Ideal.ofBits_zero_f32, zero_add]
  have e : ∀ k : Fin 512, idx_main_v24 (idx_main_v26 (idx_main_v28 (ix2 a b))) k = ix2 b k := fun k =>
    funext fun d => by match d with | ⟨0, _⟩ => rfl | ⟨1, _⟩ => rfl
  simp only [e]
  rfl

/-- The contraction of the scaled matrices over the shared axis. -/
theorem v25_apply (x : S4096x512.Idx → EReal) (p : S10000x512.Idx → EReal) (a : Fin 4096) (b : Fin 10000) :
    val_main_v25 (F := Ideal) x p (ix2 a b)
      = ∑ k : Fin 512, Cert.Spec.normRows x (ix2 a k) * Cert.Spec.normRows p (ix2 b k) := by
  rw [val_main_v25_apply, v9_eq, v19_eq]
  refine Finset.sum_congr rfl fun k _ => ?_
  have el : lidx_main_v25 (ix2 a b) k = ix2 a k :=
    funext fun d => by match d with | ⟨0, _⟩ => rfl | ⟨1, _⟩ => rfl
  have er : ridx_main_v25 (ix2 a b) k = ix2 b k :=
    funext fun d => by match d with | ⟨0, _⟩ => rfl | ⟨1, _⟩ => rfl
  rw [el, er]

/-! ## The result -/

/-- The reference's result is the specification's function of the two argument matrices. -/
theorem result_eq (x : S4096x512.Idx → EReal) (p : S10000x512.Idx → EReal) :
    val_main_v32 (F := Ideal) x p = Cert.Spec.result x p := by
  funext i
  obtain ⟨a, b, rfl⟩ : ∃ (a : Fin 4096) (b : Fin 10000), i = ix2 a b := ⟨i 0, i 1, eq_ix2 i⟩
  rw [val_main_v32_apply, val_main_v29_apply, val_main_v31_apply, val_main_v30_apply, val_main_cst_7_apply,
    v27_apply, v28_apply, v25_apply]
  rfl

/-! ## The run -/

/-- Every weakly fair execution of the reference ends with its result the specification's function of the
    arguments' launch contents, and the arguments unchanged. -/
theorem run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v32)
          = Cert.Spec.result (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)) :=
  (θ_run _ _ _).mono (fun _ h c => ⟨((h c).1.trans (val_main_v32_eq _ _)).trans (result_eq _ _), (h c).2⟩)
    (Cert.ReferenceIdeal.Value.run (F := Ideal) m ρ)

end Cert.ReferenceIdeal.RefValue

end
-- ==== Proof.lean ====
/-
  The certificate of the pairwise squared-distance kernel against its reference.

  Both programs compute, for rows a of x and b of the proxies each scaled to length three,
  (‖a‖² + ‖b‖²) − 2·⟨a, b⟩. The kernel does it in three pallas_calls — each matrix normalised block of rows by block
  of rows (the proxies' last block overhanging the array, cut at its end), then the distances tile by tile — and the
  reference in one stretch of array operations. Over the extended reals the two agree index by index with no use of
  the inputs' finiteness: the only law between them is that the kernel scales a row as v·(3·r) where the reference has
  3·(v·r). The word-level kernel's frame says nothing of what it computes: its later calls are run with proof data
  chosen when they are reached. The idealization rewrote no operation.
-/
import proofs.«139165_j18451179503909_1_alg».proof.Defs
import proofs.«139165_j18451179503909_1_alg».proof.Proof.Gen.Kernel
import proofs.«139165_j18451179503909_1_alg».proof.Proof.Gen.KernelIdeal
import proofs.«139165_j18451179503909_1_alg».proof.Proof.Gen.ReferenceIdeal
import proofs.«139165_j18451179503909_1_alg».proof.Proof.Gen.Pre_finite_inputs
import proofs.«139165_j18451179503909_1_alg».proof.Proof.K.FrameTail
import proofs.«139165_j18451179503909_1_alg».proof.Proof.KI.Value
import proofs.«139165_j18451179503909_1_alg».proof.Proof.RefValue
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel (hKernel := Cert.Kernel.Gen.facts) (hPre_finite_inputs := Cert.Pre_finite_inputs.Gen.facts) :=
  fun m ρ _ => Cert.Kernel.Hand.frame (F := Bits) m ρ

/-- So does the idealized kernel: its run with the result dropped. -/
theorem frame_ki : Cert.frame_KernelIdeal (hKernelIdeal := Cert.KernelIdeal.Gen.facts) (hPre_finite_inputs := Cert.Pre_finite_inputs.Gen.facts) :=
  fun m ρ _ => (θ_run (Cert.KernelIdeal.defs (F := Ideal)) _ _).mono (fun _ h c => (h c).2) (Cert.KernelIdeal.Hand.run_value m ρ)

/-- And the reference. -/
theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2) (Cert.ReferenceIdeal.RefValue.run m ρ)

/-- From memories that agree on the arguments both idealized programs end at the one function of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Cert.KernelIdeal.Hand.run_value m ρ, ?_⟩
  refine (θ_run (Cert.ReferenceIdeal.defs (F := Ideal)) _ _).mono (fun _ h c => ⟨(h c).1.trans ?_, (h c).2⟩)
    (Cert.ReferenceIdeal.RefValue.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
